-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x256 .f32) (main_arg1 : FVec F S8192x8192 .f32) (main_arg2 : FVec F S8192x8192 .f32) (main_arg3 : FVec F S256x128 .f32) (main_arg4 : FVec F S8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S8192 : Shape := ⟨1, ![8192]⟩
abbrev S8192x128 : Shape := ⟨2, ![8192, 128]⟩
abbrev S1024x256 : Shape := ⟨2, ![1024, 256]⟩
abbrev S1024x128 : Shape := ⟨2, ![1024, 128]⟩
abbrev S8192x1 : Shape := ⟨2, ![8192, 1]⟩

abbrev nBuf : Space → Nat
  | .hbm => 9
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x128, .f32⟩
  | .hbm, ⟨4, _⟩ => ⟨S8192, .f32⟩
  | .hbm, ⟨5, _⟩ => ⟨S8192x128, .f32⟩
  | .hbm, ⟨6, _⟩ => ⟨S8192x1, .f32⟩
  | .hbm, ⟨7, _⟩ => ⟨S8192x128, .f32⟩
  | .hbm, ⟨8, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S8192x256, .f32⟩
  | .local _ .vmem, ⟨6, _⟩ => ⟨S8192x256, .f32⟩
  | .local _ .vmem, ⟨7, _⟩ => ⟨S256x128, .f32⟩
  | .local _ .vmem, ⟨8, _⟩ => ⟨S256x128, .f32⟩
  | .local _ .vmem, ⟨9, _⟩ => ⟨S8192x1, .f32⟩
  | .local _ .vmem, ⟨10, _⟩ => ⟨S8192x128, .f32⟩
  | .local _ .vmem, ⟨11, _⟩ => ⟨S8192x128, .f32⟩
  | .local _ .vmem, ⟨12, _⟩ => ⟨S8192x256, .f32⟩
  | .local _ .vmem, ⟨13, _⟩ => ⟨S8192x256, .f32⟩
  | .local _ .vmem, ⟨14, _⟩ => ⟨S256x128, .f32⟩
  | .local _ .vmem, ⟨15, _⟩ => ⟨S256x128, .f32⟩
  | .local _ .vmem, ⟨16, _⟩ => ⟨S8192x128, .f32⟩
  | .local _ .vmem, ⟨17, _⟩ => ⟨S8192x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v14 : BitVec 1 := Scalar.cmpi .eq arg0 c31_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v14 : BitVec 1 := Scalar.cmpi .eq arg0 c31_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S8192_S8192x1 : S8192.ShapeCasts S8192x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x256_S8192x256_0_0 : ∀ a, (![0, 0] : Fin 2 → Nat) a + S8192x256.size a ≤ S8192x256.size a
  h_S8192x256 : 0 < S8192x256.numel
  shapeCasts_S256x128_S256x128 : S256x128.ShapeCasts S256x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  dot_S1024x256_S256x128_S1024x128_1_0_0_1_n_n_wf : DotDims.WF S1024x256 S256x128 S1024x128 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x8192.size a
  hwx1_0 : ∀ i : grid1.Coords, EltTy.bits .f32 = 32 ∨ (Rect.block (s := S8192x8192) S8192x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S8192x128.size a
  hwx1_1 : ∀ i : grid1.Coords, EltTy.bits .f32 = 32 ∨ (Rect.block (s := S8192x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S8192x1.size a
  hwx1_2 : ∀ i : grid1.Coords, EltTy.bits .f32 = 32 ∨ (Rect.block (s := S8192x1) S8192x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x128.size a
  hwx1_3 : ∀ i : grid1.Coords, EltTy.bits .f32 = 32 ∨ (Rect.block (s := S8192x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x256.size a ≤ S8192x8192.size a
  hwx2_0 : ∀ i : grid2.Coords, EltTy.bits .f32 = 32 ∨ (Rect.block (s := S8192x8192) S8192x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S8192x128.size a
  hwx2_1 : ∀ i : grid2.Coords, EltTy.bits .f32 = 32 ∨ (Rect.block (s := S8192x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x128.size a ≤ S8192x128.size a
  hwx2_2 : ∀ i : grid2.Coords, EltTy.bits .f32 = 32 ∨ (Rect.block (s := S8192x128) S8192x128.size (cc2_transform_2 i) (hinb2_2 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8192x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8192x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S8192x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S8192x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S8192 : Shape := ⟨1, ![8192]⟩
abbrev S8192x128 : Shape := ⟨2, ![8192, 128]⟩
abbrev S8192x1 : Shape := ⟨2, ![8192, 1]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x128, .f32⟩
  | .hbm, ⟨4, _⟩ => ⟨S8192, .f32⟩
  | .hbm, ⟨5, _⟩ => ⟨S8192x128, .f32⟩
  | .hbm, ⟨6, _⟩ => ⟨S8192x128, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KernelFr.R0.lean ====
/-
  The first kernel region (the projection features · weight, eight row blocks of 1024): what the body leaves in the
  result's staging buffer as a function of the two input blocks, the body's triple, the region's proof data at any
  entry contents `V`, and the body obligation at every grid point.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block of rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point (fetched once, its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1024x256 := Rect.unit (s := S1024x256) ![0, 0] S1024x256.size inb_S1024x256_S1024x256_0_0
abbrev r0_b : Rect S256x128 := Rect.unit (s := S256x128) ![0, 0] S256x128.size inb_S256x128_S256x128_0_0
abbrev r0_o : Rect S1024x128 := Rect.unit (s := S1024x128) ![0, 0] S1024x128.size inb_S1024x128_S1024x128_0_0

/-- The result block after the body: its one whole-block store of the product of the two input blocks. -/
def out0_2 (x0 : Vec F S1024x256 .f32) (x1 : Vec F S256x128 .f32) : Vec F S1024x128 .f32 :=
  View.canon [⟨r0_o, k0_pay1 (View.ld x0 r0_a) (View.ld x1 r0_b)⟩]

theorem cover0_2 (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

set_option maxHeartbeats 1000000 in
/-- The body on whole staging memrefs: the inputs at `x0`, `x1`, the result at anything; it returns the inputs as they
    were and the result at `out0_2 x0 x1`. -/
theorem sound_kernel0 (c : Dev nD) (E : Set ℕ) (i : grid0.Coords) (arg1 : Memref sig .tc .vmem S1024x256 .f32) (harg1 : arg1.IsWhole) (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data at entry contents `V`: the arrays as found; after the body each input's buffer at its block,
    the result's at `out0_2` of the two input blocks; the invariant the class's; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KernelFr.K1.lean ====
/-
  The second kernel region (wavelets⁻¹ · transformed, accumulated over 32 column blocks of 256 in a scratch, scaled by the
  filter at the last point): what its runs and proof data are stated over — the blocks, where the body's two branches
  are taken, where the result window is idle, the memrefs, and the scoped buffers the pipeline does not stage with the
  accumulator singled out.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- The first branch (reset the accumulator) is taken: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second branch (scale and store the result) is taken: the grid coordinate is 31. -/
abbrev cond1_1 (i : grid1.Coords) : Prop := k1_cond2 i = 1#1
theorem hcond1_1 : ∀ t : Fin cfg1.N, cond1_1 (grid1.coords t) ↔ t.val = 31 :=
  (by decide +kernel : ∀ t : Fin grid1.N, cond1_1 (grid1.coords t) ↔ t.val = 31)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last point the result window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The result window's staging buffer as a view, through which its contents are stated. -/
abbrev VO1_3 : View sig .tc .vmem S8192x128 .f32 := (Memref.whole cc1_stg3_0 : Memref sig .tc .vmem S8192x128 .f32).view
abbrev ms1_0 (t : Fin cfg1.N) : Memref sig .tc .vmem S8192x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S8192x128 .f32 := Memref.whole cc1_scratch0
abbrev VS1 : View sig .tc .vmem S8192x128 .f32 := scM1.view

/-- The scoped buffers region 1 neither stages nor uses (the other two regions' staging buffers and the third region's
    accumulator), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The unstaged scoped buffers, with the accumulator taken out as a memref owned at some contents. -/
theorem scoped1_split (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ others1 (F := F) c) := by
  rw [scopedRest1_eq]; unfold others1; simp only [scM1, owns_whole]
  iintro ⟨H0, H1, H2, H3, H4, HS, H6, H7, H8, H9, H10, H11⟩
  isplitl [HS]; · iexact HS
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  iexact H11

theorem scoped1_join (c : Dev nD) :
    iprop((∃ d, owns (c : Thread nD τ) scM1 fullShare d) ∗ others1 (F := F) c)
      ⊢ (Pipeline.scopedRest (Ix := Unit) (Name := ℕ) (U := UR sig nD τ) (Lvl := ℕ) (Val := Elt F) spec1 c : sProp 𝕄) := by
  rw [scopedRest1_eq]; unfold others1; simp only [scM1, owns_whole]
  iintro ⟨HS, H0, H1, H2, H3, H4, H6, H7, H8, H9, H10, H11⟩
  isplitl [H0]; · iexact H0
  isplitl [H1]; · iexact H1
  isplitl [H2]; · iexact H2
  isplitl [H3]; · iexact H3
  isplitl [H4]; · iexact H4
  isplitl [HS]; · iexact HS
  isplitl [H6]; · iexact H6
  isplitl [H7]; · iexact H7
  isplitl [H8]; · iexact H8
  isplitl [H9]; · iexact H9
  isplitl [H10]; · iexact H10
  iexact H11

end Cert.Kernel.Fr

end
-- ==== Proof.KernelFr.R1RunA.lean ====
/-
  The second kernel region's body at the first grid point (the accumulator is reset, then the first partial product is
  added; the result window is left alone): the pieces its stores leave in the accumulator, with the triple.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.K1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : cond1_0 i) (hc1 : ¬cond1_1 i)
    (x0 : Vec F S8192x256 .f32) (x1 : Vec F S256x128 .f32) (x2 : Vec F S8192x1 .f32) :
    { LS0 : List (View.Piece (Elt F) S8192x128 .f32) //
      ∀ (xi3 : Vec F S8192x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__right_kernel i arg1 harg1 arg2 harg2 arg3 harg3 arg4 harg4 arg5 harg5) K } := by
  refine ⟨?_, fun xi3 E K => ?run⟩
  case run =>
    simp only [cc1__right_kernel_eq_skeleton]; unfold cc1__right_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.KernelFr.R1RunB.lean ====
/-
  The second kernel region's body at a middle grid point (neither branch taken: one more partial product is added to the
  accumulator; the result window is left alone): the pieces its store leaves in the accumulator, with the triple.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : ¬cond1_1 i)
    (x0 : Vec F S8192x256 .f32) (x1 : Vec F S256x128 .f32) (x2 : Vec F S8192x1 .f32) (xs0 : Vec F S8192x128 .f32) :
    { LS0 : List (View.Piece (Elt F) S8192x128 .f32) //
      ∀ (xi3 : Vec F S8192x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__right_kernel i arg1 harg1 arg2 harg2 arg3 harg3 arg4 harg4 arg5 harg5) K } := by
  refine ⟨?_, fun xi3 E K => ?run⟩
  case run =>
    simp only [cc1__right_kernel_eq_skeleton]; unfold cc1__right_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.KernelFr.R1RunC.lean ====
/-
  The second kernel region's body at the last grid point (the last partial product is added, then the accumulator times
  the filter column is stored into the result window): the pieces its stores leave in the result's staging buffer and
  in the accumulator, with the triple.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) :
    Σ' (L3 : List (View.Piece (Elt F) S8192x128 .f32)), { LS0 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__right_kernel i arg1 harg1 arg2 harg2 arg3 harg3 arg4 harg4 arg5 harg5) K } := by
  refine ⟨?_, ?_, fun E K => ?run⟩
  case run =>
    simp only [cc1__right_kernel_eq_skeleton]; unfold cc1__right_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Fr

end
-- ==== Proof.KernelFr.R1Defs.lean ====
/-
  The second kernel region: what each control case leaves in the accumulator and in the result's staging buffer, the
  accumulator and result point by point (a recursion over the grid: reset-and-add at point 0, add afterwards, and at
  point 31 also the scaled store), the invariant between points (the accumulator at what the point before left), and the
  region's proof data at any entry contents `V`.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in the accumulator: its pieces read back. -/
def sout1_A (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : cond1_0 i) (hc1 : ¬cond1_1 i)
    (x0 : Vec F S8192x256 .f32) (x1 : Vec F S256x128 .f32) (x2 : Vec F S8192x1 .f32) : Vec F S8192x128 .f32 :=
  VS1.read (Elt F) (VS1.writes (Elt F) VS1.junk (kernelRun1_A c i arg1 harg1 arg2 harg2 arg3 harg3 arg4 harg4 arg5 harg5 hc0 hc1 x0 x1 x2).1)
theorem scover1_A (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : cond1_0 i) (hc1 : ¬cond1_1 i)
    (x0 : Vec F S8192x256 .f32) (x1 : Vec F S256x128 .f32) (x2 : Vec F S8192x1 .f32) (y : S8192x128.Idx) :
    ∃ pc ∈ (kernelRun1_A c i arg1 harg1 arg2 harg2 arg3 harg3 arg4 harg4 arg5 harg5 hc0 hc1 x0 x1 x2).1, y ∈ pc.1.set :=
  View.cover_of_tiledL (kernelRun1_A c i arg1 harg1 arg2 harg2 arg3 harg3 arg4 harg4 arg5 harg5 hc0 hc1 x0 x1 x2).1 S8192x128.size (by sl_kernel_rfl) y

/-- What a middle point leaves in the accumulator, over what the point before left (`xs0`). -/
def sout1_B (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : ¬cond1_1 i)
    (x0 : Vec F S8192x256 .f32) (x1 : Vec F S256x128 .f32) (x2 : Vec F S8192x1 .f32) (xs0 : Vec F S8192x128 .f32) : Vec F S8192x128 .f32 :=
  VS1.read (Elt F) (VS1.writes (Elt F) VS1.junk (kernelRun1_B c i arg1 harg1 arg2 harg2 arg3 harg3 arg4 harg4 arg5 harg5 hc0 hc1 x0 x1 x2 xs0).1)
theorem scover1_B (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : ¬cond1_1 i)
    (x0 : Vec F S8192x256 .f32) (x1 : Vec F S256x128 .f32) (x2 : Vec F S8192x1 .f32) (xs0 : Vec F S8192x128 .f32) (y : S8192x128.Idx) :
    ∃ pc ∈ (kernelRun1_B c i arg1 harg1 arg2 harg2 arg3 harg3 arg4 harg4 arg5 harg5 hc0 hc1 x0 x1 x2 xs0).1, y ∈ pc.1.set :=
  View.cover_of_tiledL (kernelRun1_B c i arg1 harg1 arg2 harg2 arg3 harg3 arg4 harg4 arg5 harg5 hc0 hc1 x0 x1 x2 xs0).1 S8192x128.size (by sl_kernel_rfl) y

/-- What the last point leaves in the result's staging buffer and in the accumulator. -/
def out1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) : Vec F S8192x128 .f32 :=
  VO1_3.read (Elt F) (VO1_3.writes (Elt F) VO1_3.junk (kernelRun1_C c i arg1 harg1 arg2 harg2 arg3 harg3 arg4 harg4 arg5 harg5 hc0 hc1 x0 x1 x2 xs0).1)
theorem cover1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) (y : S8192x128.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S8192x128.size (by sl_kernel_rfl) y
def sout1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) : Vec F S8192x128 .f32 :=
  VS1.read (Elt F) (VS1.writes (Elt F) VS1.junk (kernelRun1_C c i arg1 harg1 arg2 harg2 arg3 harg3 arg4 harg4 arg5 harg5 hc0 hc1 x0 x1 x2 xs0).2.1)
theorem scover1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) (y : S8192x128.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S8192x128.size (by sl_kernel_rfl) y

/-- A placeholder for the result's staging buffer at the points where the window is idle: nothing consults it (the window is
    neither written back there nor read at the next point). -/
def idleOut1 : Vec F S8192x128 .f32 := VO1_3.read (Elt F) VO1_3.junk

variable (V : (c : Dev nD) → (b : Ref sig .tc) → Buf (Elt F) ((c : Thread nD τ).loc b))

/-- The result's staging buffer and the accumulator after the body at position `n`. -/
def outsAt1 (c : Dev nD) : (n : ℕ) → n < cfg1.N → Vec F S8192x128 .f32 × Vec F S8192x128 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr rfl) (fun h => absurd ((hcond1_1 ⟨0, hn⟩).mp h) (Nat.zero_ne_add_one 30)) (iblk1 V c 0 ⟨0, hn⟩) (iblk1 V c 1 ⟨0, hn⟩) (iblk1 V c 2 ⟨0, hn⟩))
  | n + 1, hn =>
    if h1 : n + 1 = 31 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At the first point: the reset-and-add case. -/
theorem outsAt1_A (c : Dev nD) (t : Fin cfg1.N) (h0 : t.val = 0) (h1 : ¬t.val = 31) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (Nat.succ_ne_zero n)

/-- At a middle point: the add case, over what the point before left. -/
theorem outsAt1_B (c : Dev nD) (t : Fin cfg1.N) (h0 : ¬t.val = 0) (h1 : ¬t.val = 31) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last point: the add-and-store case, over what the point before left. -/
theorem outsAt1_C (c : Dev nD) (t : Fin cfg1.N) (h0 : ¬t.val = 0) (h1 : t.val = 31) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The invariant before position `n`: before the first point the accumulator at anything; afterwards at what the point
    before left in it; beside it the scoped buffers the region does not use and the generator register at some state. -/
def PhiS1 (c : Dev nD) : (n : ℕ) → n ≤ cfg1.N → sProp 𝕄
  | 0, _ => iprop((∃ d, owns (c : Thread nD τ) scM1 fullShare d) ∗ others1 (F := F) c ∗ (∃ r, prngReg c r))
  | n + 1, hn => iprop(owns (c : Thread nD τ) scM1 fullShare ((outsAt1 V c n hn).2) ∗ others1 (F := F) c ∗ (∃ r, prngReg c r))

theorem PhiS1_zero (c : Dev nD) (n : ℕ) (h : n ≤ cfg1.N) (hz : n = 0) :
    PhiS1 V c n h = iprop((∃ d, owns (c : Thread nD τ) scM1 fullShare d) ∗ others1 (F := F) c ∗ (∃ r, prngReg c r)) := by
  subst hz; rfl
theorem PhiS1_succ (c : Dev nD) (n : ℕ) (hn : n < cfg1.N) :
    PhiS1 V c (n + 1) hn = iprop(owns (c : Thread nD τ) scM1 fullShare ((outsAt1 V c n hn).2) ∗ others1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ others1 (F := F) c ∗ (∃ r, prngReg c r)) := by
  cases n with
  | zero => exact absurd rfl hz
  | succ n => rfl

/-- The region's proof data at entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Fr

end
-- ==== Proof.KernelFr.R1Body.lean ====
/-
  The second kernel region's body obligation at every grid point: the input buffers hold their blocks, the point's case
  is read off its position, the accumulator enters at what the point before left (at anything at point 0) and leaves at
  this point's contents, the result window is handed back untouched where it is idle and at the scaled accumulator at the
  last point; the unused scoped buffers and the generator register pass through.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val = 0
  · have h1 : ¬t.val = 31 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    rw [PhiS1_castSucc V c t, PhiS1_zero V c _ _ h0]
    iintro ⟨⟨HS0, Hoth, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0]
      · unfold owns; iexists _; isplitr
        swap; · iexact HS0
        ipureintro; exact View.read_writes_of_cover _ _ _ _ _ (scover1_A c _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    iexists _; iexact H3
  · by_cases h1 : t.val = 31
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ h0]
      iintro ⟨⟨HS0, Hoth, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0]
        · unfold owns; iexists _; isplitr
          swap; · iexact HS0
          ipureintro; exact View.read_writes_of_cover _ _ _ _ _ (scover1_C c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ h0]
      iintro ⟨⟨HS0, Hoth, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0]
        · unfold owns; iexists _; isplitr
          swap; · iexact HS0
          ipureintro; exact View.read_writes_of_cover _ _ _ _ _ (scover1_B c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KernelFr.K2.lean ====
/-
  The third kernel region (wavelets · scaled, accumulated over 32 column blocks of 256 in a scratch and stored at the last
  point): what its runs and proof data are stated over — the blocks, where the body's two branches are taken, where the
  result window is idle, the memrefs, and the scoped buffers the pipeline does not stage with the accumulator singled out.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-- The first branch (reset the accumulator) is taken: the grid coordinate is 0. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- The second branch (store the result) is taken: the grid coordinate is 31. -/
abbrev cond2_1 (i : grid2.Coords) : Prop := k2_cond2 i = 1#1
theorem hcond2_1 : ∀ t : Fin cfg2.N, cond2_1 (grid2.coords t) ↔ t.val = 31 :=
  (by decide +kernel : ∀ t : Fin grid2.N, cond2_1 (grid2.coords t) ↔ t.val = 31)

theorem liveAt2_0 : ∀ t : Fin cfg2.N, cfg2.idle 0 (grid2.coords t) = false := by decide +kernel
theorem liveAt2_1 : ∀ t : Fin cfg2.N, cfg2.idle 1 (grid2.coords t) = false := by decide +kernel
/-- Off the last point the result window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- The result window's staging buffer as a view, through which its contents are stated. -/
abbrev VO2_2 : View sig .tc .vmem S8192x128 .f32 := (Memref.whole cc2_stg2_0 : Memref sig .tc .vmem S8192x128 .f32).view
abbrev ms2_0 (t : Fin cfg2.N) : Memref sig .tc .vmem S8192x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S8192x128 .f32 := Memref.whole cc2_scratch0
abbrev VS2 : View sig .tc .vmem S8192x128 .f32 := scM2.view

/-- The scoped buffers region 2 neither stages nor uses (the other two regions' staging buffers and the second region's
    accumulator), each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The unstaged scoped buffers, with the accumulator taken out as a memref owned at some contents. -/
theorem scoped2_split (c : Dev nD) :
    (Pipeline.scopedRest (Ix := Unit) (Name := ℕ) (U := UR sig nD τ) (Lvl := ℕ) (Val := Elt F) spec2 c : sProp 𝕄)
      ⊢ iprop((∃ d, owns (c : Thread nD τ) scM2 fullShare d) ∗ others2 (F := F) c) := by
  rw [scopedRest2_eq]; unfold others2; simp only [scM2, owns_whole]
  iintro ⟨H0, H1, H2, H3, H4, H5, H6, H7, H8, H9, H10, H11, HS⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem scoped2_join (c : Dev nD) :
    iprop((∃ d, owns (c : Thread nD τ) scM2 fullShare d) ∗ others2 (F := F) c)
      ⊢ (Pipeline.scopedRest (Ix := Unit) (Name := ℕ) (U := UR sig nD τ) (Lvl := ℕ) (Val := Elt F) spec2 c : sProp 𝕄) := by
  rw [scopedRest2_eq]; unfold others2; simp only [scM2, owns_whole]
  iintro ⟨HS, H0, H1, H2, H3, H4, H5, H6, H7, H8, H9, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

end Cert.Kernel.Fr

end
-- ==== Proof.KernelFr.R2RunA.lean ====
/-
  The third kernel region's body at the first grid point (the accumulator is reset, then the first partial product is
  added; the result window is left alone): the pieces its stores leave in the accumulator, with the triple.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.K2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : cond2_0 i) (hc1 : ¬cond2_1 i)
    (x0 : Vec F S8192x256 .f32) (x1 : Vec F S256x128 .f32) :
    { LS0 : List (View.Piece (Elt F) S8192x128 .f32) //
      ∀ (xi2 : Vec F S8192x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__out_kernel i arg1 harg1 arg2 harg2 arg3 harg3 arg4 harg4) K } := by
  refine ⟨?_, fun xi2 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.KernelFr.R2RunB.lean ====
/-
  The third kernel region's body at a middle grid point (neither branch taken: one more partial product is added to the
  accumulator; the result window is left alone): the pieces its store leaves in the accumulator, with the triple.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R2RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : ¬cond2_1 i)
    (x0 : Vec F S8192x256 .f32) (x1 : Vec F S256x128 .f32) (xs0 : Vec F S8192x128 .f32) :
    { LS0 : List (View.Piece (Elt F) S8192x128 .f32) //
      ∀ (xi2 : Vec F S8192x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__out_kernel i arg1 harg1 arg2 harg2 arg3 harg3 arg4 harg4) K } := by
  refine ⟨?_, fun xi2 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.KernelFr.R2RunC.lean ====
/-
  The third kernel region's body at the last grid point (the last partial product is added, then the accumulator is stored
  into the result window): the pieces its stores leave in the result's staging buffer and in the accumulator, with the
  triple.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R2RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i)
    (x0 : Vec F S8192x256 .f32) (x1 : Vec F S256x128 .f32) (xs0 : Vec F S8192x128 .f32) :
    Σ' (L2 : List (View.Piece (Elt F) S8192x128 .f32)), { LS0 : List (View.Piece (Elt F) S8192x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__out_kernel i arg1 harg1 arg2 harg2 arg3 harg3 arg4 harg4) K } := by
  refine ⟨?_, ?_, fun E K => ?run⟩
  case run =>
    simp only [cc2__out_kernel_eq_skeleton]; unfold cc2__out_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.KernelFr.R2Defs.lean ====
/-
  The third kernel region: what each control case leaves in the accumulator and in the result's staging buffer, the
  accumulator and result point by point (reset-and-add at point 0, add afterwards, and at point 31 also the store), the
  invariant between points (the accumulator at what the point before left), and the region's proof data at any entry
  contents `V`.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in the accumulator: its pieces read back. -/
def sout2_A (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : cond2_0 i) (hc1 : ¬cond2_1 i) (x0 : Vec F S8192x256 .f32) (x1 : Vec F S256x128 .f32) : Vec F S8192x128 .f32 :=
  VS2.read (Elt F) (VS2.writes (Elt F) VS2.junk (kernelRun2_A c i arg1 harg1 arg2 harg2 arg3 harg3 arg4 harg4 hc0 hc1 x0 x1).1)
theorem scover2_A (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : cond2_0 i) (hc1 : ¬cond2_1 i) (x0 : Vec F S8192x256 .f32) (x1 : Vec F S256x128 .f32) (y : S8192x128.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S8192x128.size (by sl_kernel_rfl) y

/-- What a middle point leaves in the accumulator, over what the point before left (`xs0`). -/
def sout2_B (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : ¬cond2_1 i) (x0 : Vec F S8192x256 .f32) (x1 : Vec F S256x128 .f32) (xs0 : Vec F S8192x128 .f32) : Vec F S8192x128 .f32 :=
  VS2.read (Elt F) (VS2.writes (Elt F) VS2.junk (kernelRun2_B c i arg1 harg1 arg2 harg2 arg3 harg3 arg4 harg4 hc0 hc1 x0 x1 xs0).1)
theorem scover2_B (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : ¬cond2_1 i) (x0 : Vec F S8192x256 .f32) (x1 : Vec F S256x128 .f32) (xs0 : Vec F S8192x128 .f32) (y : S8192x128.Idx) :
    ∃ pc ∈ (kernelRun2_B c i arg1 harg1 arg2 harg2 arg3 harg3 arg4 harg4 hc0 hc1 x0 x1 xs0).1, y ∈ pc.1.set :=
  View.cover_of_tiledL (kernelRun2_B c i arg1 harg1 arg2 harg2 arg3 harg3 arg4 harg4 hc0 hc1 x0 x1 xs0).1 S8192x128.size (by sl_kernel_rfl) y

/-- What the last point leaves in the result's staging buffer and in the accumulator. -/
def out2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) : Vec F S8192x128 .f32 :=
  VO2_2.read (Elt F) (VO2_2.writes (Elt F) VO2_2.junk (kernelRun2_C c i arg1 harg1 arg2 harg2 arg3 harg3 arg4 harg4 hc0 hc1 x0 x1 xs0).1)
theorem cover2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) (y : S8192x128.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S8192x128.size (by sl_kernel_rfl) y
def sout2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) : Vec F S8192x128 .f32 :=
  VS2.read (Elt F) (VS2.writes (Elt F) VS2.junk (kernelRun2_C c i arg1 harg1 arg2 harg2 arg3 harg3 arg4 harg4 hc0 hc1 x0 x1 xs0).2.1)
theorem scover2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) (y : S8192x128.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S8192x128.size (by sl_kernel_rfl) y

/-- A placeholder for the result's staging buffer at the points where the window is idle: nothing consults it. -/
def idleOut2 : Vec F S8192x128 .f32 := VO2_2.read (Elt F) VO2_2.junk

variable (V : (c : Dev nD) → (b : Ref sig .tc) → Buf (Elt F) ((c : Thread nD τ).loc b))

/-- The result's staging buffer and the accumulator after the body at position `n`. -/
def outsAt2 (c : Dev nD) : (n : ℕ) → n < cfg2.N → Vec F S8192x128 .f32 × Vec F S8192x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr rfl) (fun h => absurd ((hcond2_1 ⟨0, hn⟩).mp h) (Nat.zero_ne_add_one 30)) (iblk2 V c 0 ⟨0, hn⟩) (iblk2 V c 1 ⟨0, hn⟩))
  | n + 1, hn =>
    if h1 : n + 1 = 31 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) (h1 : ¬t.val = 31) :
    outsAt2 V c t.val t.isLt = (idleOut2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 31) :
    outsAt2 V c t.val t.isLt = (idleOut2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 31) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The invariant before position `n`: before the first point the accumulator at anything; afterwards at what the point
    before left in it; beside it the scoped buffers the region does not use and the generator register at some state. -/
def PhiS2 (c : Dev nD) : (n : ℕ) → n ≤ cfg2.N → sProp 𝕄
  | 0, _ => iprop((∃ d, owns (c : Thread nD τ) scM2 fullShare d) ∗ others2 (F := F) c ∗ (∃ r, prngReg c r))
  | n + 1, hn => iprop(owns (c : Thread nD τ) scM2 fullShare ((outsAt2 V c n hn).2) ∗ others2 (F := F) c ∗ (∃ r, prngReg c r))

theorem PhiS2_zero (c : Dev nD) (n : ℕ) (h : n ≤ cfg2.N) (hz : n = 0) :
    PhiS2 V c n h = iprop((∃ d, owns (c : Thread nD τ) scM2 fullShare d) ∗ others2 (F := F) c ∗ (∃ r, prngReg c r)) := by
  subst hz; rfl
theorem PhiS2_succ (c : Dev nD) (n : ℕ) (hn : n < cfg2.N) :
    PhiS2 V c (n + 1) hn = iprop(owns (c : Thread nD τ) scM2 fullShare ((outsAt2 V c n hn).2) ∗ others2 (F := F) c ∗ (∃ r, prngReg c r)) := rfl
theorem PhiS2_pos (c : Dev nD) (n : ℕ) (h : n ≤ cfg2.N) (hz : n ≠ 0) :
    PhiS2 V c n h = iprop(owns (c : Thread nD τ) scM2 fullShare ((outsAt2 V c (n - 1) (by omega)).2) ∗ others2 (F := F) c ∗ (∃ r, prngReg c r)) := by
  cases n with
  | zero => exact absurd rfl hz
  | succ n => rfl

/-- The region's proof data at entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.Kernel.Fr

end
-- ==== Proof.KernelFr.R2Body.lean ====
/-
  The third kernel region's body obligation at every grid point: the input buffers hold their blocks, the point's case is
  read off its position, the accumulator enters at what the point before left (at anything at point 0) and leaves at this
  point's contents, the result window is handed back untouched where it is idle and at the accumulator at the last point;
  the unused scoped buffers and the generator register pass through.
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 32 := lt_of_lt_of_eq t.isLt (show cfg2.N = 32 from N_2)
  by_cases h0 : t.val = 0
  · have h1 : ¬t.val = 31 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    rw [PhiS2_castSucc V c t, PhiS2_zero V c _ _ h0]
    iintro ⟨⟨HS0, Hoth, Hg⟩, Ho, ⟨%d0, H0⟩, ⟨%d1, H1⟩, ⟨%d2, H2⟩⟩
    iapply ((kernelRun2_A c (grid2.coords t) _ _ _ _ _ _ _ _ ((hcond2_0 t).mpr h0) (fun h => h1 ((hcond2_1 t).mp h)) (iblk2 V c 0 t) (iblk2 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0]
      · unfold owns; iexists _; isplitr
        swap; · iexact HS0
        ipureintro; exact View.read_writes_of_cover _ _ _ _ _ (scover2_A c _ _ _ _ _ _ _ _ _ _ _ _ _)
      isplitl [Hoth]; · iexact Hoth
      iexact Hg
    isplitl [Ho]; · iexact Ho
    isplitl [H0]; · iexact H0
    isplitl [H1]; · iexact H1
    iexists _; iexact H2
  · by_cases h1 : t.val = 31
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ h0]
      iintro ⟨⟨HS0, Hoth, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover2_C c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ h0]
      iintro ⟨⟨HS0, Hoth, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover2_B c _ _ _ _ _ _ _ _ _ _ _ _ _ _)
        isplitl [Hoth]; · iexact Hoth
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KernelFr.Run.lean ====
/-
  The kernel program as a whole: the unscoped buffers' contents at every boundary between @main's items (the launch memory;
  after the first region its result array at what the region's write-backs leave; after the reshape of the filter; after the
  second and third regions likewise), each region as a segment entered from and left at those contents, and the run: every
  weakly fair execution of @main terminates with every unscoped buffer at the last boundary's contents. Read at the
  argument arrays these are the launch contents (no item writes an argument).
-/
import proofs.«113810_j55422257988357_1_alg».proof.Proof.Gen.Kernel.Launch
import proofs.«113810_j55422257988357_1_alg».proof.Proof.Gen.Kernel.Skeleton
import proofs.«113810_j55422257988357_1_alg».proof.Proof.Gen.Kernel.Points
import proofs.«113810_j55422257988357_1_alg».proof.Proof.KernelFr.R0
import proofs.«113810_j55422257988357_1_alg».proof.Proof.KernelFr.R1Body
import proofs.«113810_j55422257988357_1_alg».proof.Proof.KernelFr.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch (the first region's entry). -/
abbrev W0 : Dev nD → Valuation τ sig (Elt F) := fun c b => m (c, b)
abbrev Ve0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After the reshape of the filter into a column (the second region's entry). -/
abbrev W2 : Dev nD → Valuation τ sig (Elt F) := fun c => StableHlo.after hostOps1 (W1 m c)
abbrev Ve2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (Ve2 m) c).arrAt w cfg1.N
theorem W3_arr (c : Dev nD) (w : Fin cfg1.W) :
    W3 m c (Proc.devRef .tc (Pipeline.arrRef spec1 w)) = (dat1 (Ve2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ve3 : (c : Dev nD) → (b : Ref sig .tc) → Buf (Elt F) ((c : Thread nD τ).loc b) := fun c b => W3 m c b
theorem hF1 (c : Dev nD) (w : Fin cfg1.W) : (dat1 (Ve2 m) c).arrAt w cfg1.N = Ve3 m c (Pipeline.arrRef spec1 w) :=
  (W3_arr m c w).symm
theorem hrest1 (c : Dev nD) : ∀ b, b ∉ Finset.univ.image (Pipeline.arrRef spec1) → Ve3 m c b = Ve2 m c b :=
  fun b hb => W3_of_ne m c b fun w e => hb (Finset.mem_image.mpr ⟨w, Finset.mem_univ _, e⟩)
/-- After the third region (the end of @main). -/
def W4 (c : Dev nD) : Valuation τ sig (Elt F) :=
  Pipeline.withArrays spec2 c (W3 m c) fun w => (dat2 (Ve3 m) c).arrAt w cfg2.N
theorem W4_arr (c : Dev nD) (w : Fin cfg2.W) :
    W4 m c (Proc.devRef .tc (Pipeline.arrRef spec2 w)) = (dat2 (Ve3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev Ve4 : (c : Dev nD) → (b : Ref sig .tc) → Buf (Elt F) ((c : Thread nD τ).loc b) := fun c b => W4 m c b
theorem hF2 (c : Dev nD) (w : Fin cfg2.W) : (dat2 (Ve3 m) c).arrAt w cfg2.N = Ve4 m c (Pipeline.arrRef spec2 w) :=
  (W4_arr m c w).symm
theorem hrest2 (c : Dev nD) : ∀ b, b ∉ Finset.univ.image (Pipeline.arrRef spec2) → Ve4 m c b = Ve3 m c b :=
  fun b hb => W4_of_ne m c b fun w e => hb (Finset.mem_image.mpr ⟨w, Finset.mem_univ _, e⟩)

/-- The reshape writes the filter column only. -/
theorem hostKeeps (c : Dev nD) (b : Ref sig .tc) (hb : b ≠ main_v1) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := hostKeeps m c main_arg0 (by decide)
    _ = W0 m c (Proc.devRef .tc main_arg0) := (W1_arr m c 0).trans (((dat0 (Ve0 m) c).arrAt_in 0 rfl _).trans (A_eq0 (Ve0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (Ve3 m) c).arrAt_in 0 rfl _).trans (A_eq2 (Ve3 m) c 0))
    _ = W2 m c (Proc.devRef .tc main_arg1) := W3_of_ne m c main_arg1 (by decide)
    _ = W1 m c (Proc.devRef .tc main_arg1) := hostKeeps m c main_arg1 (by decide)
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 0).trans (((dat1 (Ve2 m) c).arrAt_in 0 rfl _).trans (A_eq1 (Ve2 m) c 0))
    _ = W1 m c (Proc.devRef .tc main_arg2) := hostKeeps m c main_arg2 (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := hostKeeps m c main_arg3 (by decide)
    _ = W0 m c (Proc.devRef .tc main_arg3) := (W1_arr m c 1).trans (((dat0 (Ve0 m) c).arrAt_in 1 rfl _).trans (A_eq0 (Ve0 m) c 1))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := hostKeeps m c main_arg4 (by decide)
    _ = W0 m c (Proc.devRef .tc main_arg4) := W1_of_ne m c main_arg4 (by decide)
    _ = m ((c : Thread nD τ).loc main_arg4) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve2 m) c
  | ⟨2, _⟩ => fun c => dat2 (Ve3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (Ve2 m) c 0 (Nat.zero_le _) from rfl, PhiS1_zero (Ve2 m) c 0 _ rfl]
    iintro ⟨Hp, -, Hr⟩
    ihave H := (scoped1_split (F := F) c) $$ Hr
    icases H with ⟨HS, Hoth⟩
    isplitl [HS]; · iexact HS
    isplitl [Hoth]; · iexact Hoth
    iexact Hp
  hout c := by
    rw [Pipeline.ownSems0_none, show (pdats m 1 c).Φ (Fin.last _) = PhiS1 (Ve2 m) c (Fin.last cfg1.N).val (Nat.le_of_lt_succ (Fin.last cfg1.N).isLt) from rfl,
      PhiS1_pos (Ve2 m) c _ _ (by rw [Fin.val_last]; have : cfg1.N = 32 := N_1; omega)]
    iintro ⟨HS, Hoth, Hp⟩
    isplitl [Hp]; · iexact Hp
    isplitr; · iempintro
    iapply (scoped1_join (F := F) c)
    isplitl [HS]; · iexists _; iexact HS
    iexact Hoth
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = PhiS2 (Ve3 m) c 0 (Nat.zero_le _) from rfl, PhiS2_zero (Ve3 m) c 0 _ rfl]
    iintro ⟨Hp, -, Hr⟩
    ihave H := (scoped2_split (F := F) c) $$ Hr
    icases H with ⟨HS, Hoth⟩
    isplitl [HS]; · iexact HS
    isplitl [Hoth]; · iexact Hoth
    iexact Hp
  hout c := by
    rw [Pipeline.ownSems0_none, show (pdats m 2 c).Φ (Fin.last _) = PhiS2 (Ve3 m) c (Fin.last cfg2.N).val (Nat.le_of_lt_succ (Fin.last cfg2.N).isLt) from rfl,
      PhiS2_pos (Ve3 m) c _ _ (by rw [Fin.val_last]; have : cfg2.N = 32 := N_2; omega)]
    iintro ⟨HS, Hoth, Hp⟩
    isplitl [Hp]; · iexact Hp
    isplitr; · iempintro
    iapply (scoped2_join (F := F) c)
    isplitl [HS]; · iexists _; iexact HS
    iexact Hoth
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve3 m c) (Ve4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Fr

end
-- ==== Proof.KernelIdealFr.R0.lean ====
/-
  The first kernel region (the projection features · weight, eight row blocks of 1024): what the body leaves in the
  result's staging buffer as a function of the two input blocks, the body's triple, the region's proof data at any
  entry contents `V`, and the body obligation at every grid point.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block of rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point (fetched once, its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1024x256 := Rect.unit (s := S1024x256) ![0, 0] S1024x256.size inb_S1024x256_S1024x256_0_0
abbrev r0_b : Rect S256x128 := Rect.unit (s := S256x128) ![0, 0] S256x128.size inb_S256x128_S256x128_0_0
abbrev r0_o : Rect S1024x128 := Rect.unit (s := S1024x128) ![0, 0] S1024x128.size inb_S1024x128_S1024x128_0_0

/-- The result block after the body: its one whole-block store of the product of the two input blocks. -/
def out0_2 (x0 : Vec F S1024x256 .f32) (x1 : Vec F S256x128 .f32) : Vec F S1024x128 .f32 :=
  View.canon [⟨r0_o, k0_pay1 (View.ld x0 r0_a) (View.ld x1 r0_b)⟩]

theorem cover0_2 (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

set_option maxHeartbeats 1000000 in
/-- The body on whole staging memrefs: the inputs at `x0`, `x1`, the result at anything; it returns the inputs as they
    were and the result at `out0_2 x0 x1`. -/
theorem sound_kernel0 (c : Dev nD) (E : Set ℕ) (i : grid0.Coords) (arg1 : Memref sig .tc .vmem S1024x256 .f32) (harg1 : arg1.IsWhole) (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data at entry contents `V`: the arrays as found; after the body each input's buffer at its block,
    the result's at `out0_2` of the two input blocks; the invariant the class's; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdealFr.K1.lean ====
/-
  The second kernel region (wavelets⁻¹ · transformed, accumulated over 32 column blocks of 256 in a scratch, scaled by the
  filter at the last point): what its runs and proof data are stated over — the blocks, where the body's two branches
  are taken, where the result window is idle, the memrefs, and the scoped buffers the pipeline does not stage with the
  accumulator singled out.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- The first branch (reset the accumulator) is taken: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second branch (scale and store the result) is taken: the grid coordinate is 31. -/
abbrev cond1_1 (i : grid1.Coords) : Prop := k1_cond2 i = 1#1
theorem hcond1_1 : ∀ t : Fin cfg1.N, cond1_1 (grid1.coords t) ↔ t.val = 31 :=
  (by decide +kernel : ∀ t : Fin grid1.N, cond1_1 (grid1.coords t) ↔ t.val = 31)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last point the result window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The result window's staging buffer as a view, through which its contents are stated. -/
abbrev VO1_3 : View sig .tc .vmem S8192x128 .f32 := (Memref.whole cc1_stg3_0 : Memref sig .tc .vmem S8192x128 .f32).view
abbrev ms1_0 (t : Fin cfg1.N) : Memref sig .tc .vmem S8192x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S8192x128 .f32 := Memref.whole cc1_scratch0
abbrev VS1 : View sig .tc .vmem S8192x128 .f32 := scM1.view

/-- The scoped buffers region 1 neither stages nor uses (the other two regions' staging buffers and the third region's
    accumulator), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The unstaged scoped buffers, with the accumulator taken out as a memref owned at some contents. -/
theorem scoped1_split (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ others1 (F := F) c) := by
  rw [scopedRest1_eq]; unfold others1; simp only [scM1, owns_whole]
  iintro ⟨H0, H1, H2, H3, H4, HS, H6, H7, H8, H9, H10, H11⟩
  isplitl [HS]; · iexact HS
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  iexact H11

theorem scoped1_join (c : Dev nD) :
    iprop((∃ d, owns (c : Thread nD τ) scM1 fullShare d) ∗ others1 (F := F) c)
      ⊢ (Pipeline.scopedRest (Ix := Unit) (Name := ℕ) (U := UR sig nD τ) (Lvl := ℕ) (Val := Elt F) spec1 c : sProp 𝕄) := by
  rw [scopedRest1_eq]; unfold others1; simp only [scM1, owns_whole]
  iintro ⟨HS, H0, H1, H2, H3, H4, H6, H7, H8, H9, H10, H11⟩
  isplitl [H0]; · iexact H0
  isplitl [H1]; · iexact H1
  isplitl [H2]; · iexact H2
  isplitl [H3]; · iexact H3
  isplitl [H4]; · iexact H4
  isplitl [HS]; · iexact HS
  isplitl [H6]; · iexact H6
  isplitl [H7]; · iexact H7
  isplitl [H8]; · iexact H8
  isplitl [H9]; · iexact H9
  isplitl [H10]; · iexact H10
  iexact H11

end Cert.KernelIdeal.Fr

end
-- ==== Proof.KernelIdealFr.R1RunA.lean ====
/-
  The second kernel region's body at the first grid point (the accumulator is reset, then the first partial product is
  added; the result window is left alone): the pieces its stores leave in the accumulator, with the triple.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.K1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : cond1_0 i) (hc1 : ¬cond1_1 i)
    (x0 : Vec F S8192x256 .f32) (x1 : Vec F S256x128 .f32) (x2 : Vec F S8192x1 .f32) :
    { LS0 : List (View.Piece (Elt F) S8192x128 .f32) //
      ∀ (xi3 : Vec F S8192x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__right_kernel i arg1 harg1 arg2 harg2 arg3 harg3 arg4 harg4 arg5 harg5) K } := by
  refine ⟨?_, fun xi3 E K => ?run⟩
  case run =>
    simp only [cc1__right_kernel_eq_skeleton]; unfold cc1__right_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.KernelIdealFr.R1RunB.lean ====
/-
  The second kernel region's body at a middle grid point (neither branch taken: one more partial product is added to the
  accumulator; the result window is left alone): the pieces its store leaves in the accumulator, with the triple.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : ¬cond1_1 i)
    (x0 : Vec F S8192x256 .f32) (x1 : Vec F S256x128 .f32) (x2 : Vec F S8192x1 .f32) (xs0 : Vec F S8192x128 .f32) :
    { LS0 : List (View.Piece (Elt F) S8192x128 .f32) //
      ∀ (xi3 : Vec F S8192x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__right_kernel i arg1 harg1 arg2 harg2 arg3 harg3 arg4 harg4 arg5 harg5) K } := by
  refine ⟨?_, fun xi3 E K => ?run⟩
  case run =>
    simp only [cc1__right_kernel_eq_skeleton]; unfold cc1__right_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.KernelIdealFr.R1RunC.lean ====
/-
  The second kernel region's body at the last grid point (the last partial product is added, then the accumulator times
  the filter column is stored into the result window): the pieces its stores leave in the result's staging buffer and
  in the accumulator, with the triple.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) :
    Σ' (L3 : List (View.Piece (Elt F) S8192x128 .f32)), { LS0 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__right_kernel i arg1 harg1 arg2 harg2 arg3 harg3 arg4 harg4 arg5 harg5) K } := by
  refine ⟨?_, ?_, fun E K => ?run⟩
  case run =>
    simp only [cc1__right_kernel_eq_skeleton]; unfold cc1__right_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Fr

end
-- ==== Proof.KernelIdealFr.R1Defs.lean ====
/-
  The second kernel region: what each control case leaves in the accumulator and in the result's staging buffer, the
  accumulator and result point by point (a recursion over the grid: reset-and-add at point 0, add afterwards, and at
  point 31 also the scaled store), the invariant between points (the accumulator at what the point before left), and the
  region's proof data at any entry contents `V`.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in the accumulator: its pieces read back. -/
def sout1_A (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : cond1_0 i) (hc1 : ¬cond1_1 i)
    (x0 : Vec F S8192x256 .f32) (x1 : Vec F S256x128 .f32) (x2 : Vec F S8192x1 .f32) : Vec F S8192x128 .f32 :=
  VS1.read (Elt F) (VS1.writes (Elt F) VS1.junk (kernelRun1_A c i arg1 harg1 arg2 harg2 arg3 harg3 arg4 harg4 arg5 harg5 hc0 hc1 x0 x1 x2).1)
theorem scover1_A (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : cond1_0 i) (hc1 : ¬cond1_1 i)
    (x0 : Vec F S8192x256 .f32) (x1 : Vec F S256x128 .f32) (x2 : Vec F S8192x1 .f32) (y : S8192x128.Idx) :
    ∃ pc ∈ (kernelRun1_A c i arg1 harg1 arg2 harg2 arg3 harg3 arg4 harg4 arg5 harg5 hc0 hc1 x0 x1 x2).1, y ∈ pc.1.set :=
  View.cover_of_tiledL (kernelRun1_A c i arg1 harg1 arg2 harg2 arg3 harg3 arg4 harg4 arg5 harg5 hc0 hc1 x0 x1 x2).1 S8192x128.size (by sl_kernel_rfl) y

/-- What a middle point leaves in the accumulator, over what the point before left (`xs0`). -/
def sout1_B (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : ¬cond1_1 i)
    (x0 : Vec F S8192x256 .f32) (x1 : Vec F S256x128 .f32) (x2 : Vec F S8192x1 .f32) (xs0 : Vec F S8192x128 .f32) : Vec F S8192x128 .f32 :=
  VS1.read (Elt F) (VS1.writes (Elt F) VS1.junk (kernelRun1_B c i arg1 harg1 arg2 harg2 arg3 harg3 arg4 harg4 arg5 harg5 hc0 hc1 x0 x1 x2 xs0).1)
theorem scover1_B (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : ¬cond1_1 i)
    (x0 : Vec F S8192x256 .f32) (x1 : Vec F S256x128 .f32) (x2 : Vec F S8192x1 .f32) (xs0 : Vec F S8192x128 .f32) (y : S8192x128.Idx) :
    ∃ pc ∈ (kernelRun1_B c i arg1 harg1 arg2 harg2 arg3 harg3 arg4 harg4 arg5 harg5 hc0 hc1 x0 x1 x2 xs0).1, y ∈ pc.1.set :=
  View.cover_of_tiledL (kernelRun1_B c i arg1 harg1 arg2 harg2 arg3 harg3 arg4 harg4 arg5 harg5 hc0 hc1 x0 x1 x2 xs0).1 S8192x128.size (by sl_kernel_rfl) y

/-- What the last point leaves in the result's staging buffer and in the accumulator. -/
def out1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) : Vec F S8192x128 .f32 :=
  VO1_3.read (Elt F) (VO1_3.writes (Elt F) VO1_3.junk (kernelRun1_C c i arg1 harg1 arg2 harg2 arg3 harg3 arg4 harg4 arg5 harg5 hc0 hc1 x0 x1 x2 xs0).1)
theorem cover1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) (y : S8192x128.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S8192x128.size (by sl_kernel_rfl) y
def sout1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) : Vec F S8192x128 .f32 :=
  VS1.read (Elt F) (VS1.writes (Elt F) VS1.junk (kernelRun1_C c i arg1 harg1 arg2 harg2 arg3 harg3 arg4 harg4 arg5 harg5 hc0 hc1 x0 x1 x2 xs0).2.1)
theorem scover1_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) (y : S8192x128.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S8192x128.size (by sl_kernel_rfl) y

/-- A placeholder for the result's staging buffer at the points where the window is idle: nothing consults it (the window is
    neither written back there nor read at the next point). -/
def idleOut1 : Vec F S8192x128 .f32 := VO1_3.read (Elt F) VO1_3.junk

variable (V : (c : Dev nD) → (b : Ref sig .tc) → Buf (Elt F) ((c : Thread nD τ).loc b))

/-- The result's staging buffer and the accumulator after the body at position `n`. -/
def outsAt1 (c : Dev nD) : (n : ℕ) → n < cfg1.N → Vec F S8192x128 .f32 × Vec F S8192x128 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr rfl) (fun h => absurd ((hcond1_1 ⟨0, hn⟩).mp h) (Nat.zero_ne_add_one 30)) (iblk1 V c 0 ⟨0, hn⟩) (iblk1 V c 1 ⟨0, hn⟩) (iblk1 V c 2 ⟨0, hn⟩))
  | n + 1, hn =>
    if h1 : n + 1 = 31 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At the first point: the reset-and-add case. -/
theorem outsAt1_A (c : Dev nD) (t : Fin cfg1.N) (h0 : t.val = 0) (h1 : ¬t.val = 31) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (Nat.succ_ne_zero n)

/-- At a middle point: the add case, over what the point before left. -/
theorem outsAt1_B (c : Dev nD) (t : Fin cfg1.N) (h0 : ¬t.val = 0) (h1 : ¬t.val = 31) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last point: the add-and-store case, over what the point before left. -/
theorem outsAt1_C (c : Dev nD) (t : Fin cfg1.N) (h0 : ¬t.val = 0) (h1 : t.val = 31) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The invariant before position `n`: before the first point the accumulator at anything; afterwards at what the point
    before left in it; beside it the scoped buffers the region does not use and the generator register at some state. -/
def PhiS1 (c : Dev nD) : (n : ℕ) → n ≤ cfg1.N → sProp 𝕄
  | 0, _ => iprop((∃ d, owns (c : Thread nD τ) scM1 fullShare d) ∗ others1 (F := F) c ∗ (∃ r, prngReg c r))
  | n + 1, hn => iprop(owns (c : Thread nD τ) scM1 fullShare ((outsAt1 V c n hn).2) ∗ others1 (F := F) c ∗ (∃ r, prngReg c r))

theorem PhiS1_zero (c : Dev nD) (n : ℕ) (h : n ≤ cfg1.N) (hz : n = 0) :
    PhiS1 V c n h = iprop((∃ d, owns (c : Thread nD τ) scM1 fullShare d) ∗ others1 (F := F) c ∗ (∃ r, prngReg c r)) := by
  subst hz; rfl
theorem PhiS1_succ (c : Dev nD) (n : ℕ) (hn : n < cfg1.N) :
    PhiS1 V c (n + 1) hn = iprop(owns (c : Thread nD τ) scM1 fullShare ((outsAt1 V c n hn).2) ∗ others1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ others1 (F := F) c ∗ (∃ r, prngReg c r)) := by
  cases n with
  | zero => exact absurd rfl hz
  | succ n => rfl

/-- The region's proof data at entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Fr

end
-- ==== Proof.KernelIdealFr.R1Body.lean ====
/-
  The second kernel region's body obligation at every grid point: the input buffers hold their blocks, the point's case
  is read off its position, the accumulator enters at what the point before left (at anything at point 0) and leaves at
  this point's contents, the result window is handed back untouched where it is idle and at the scaled accumulator at the
  last point; the unused scoped buffers and the generator register pass through.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val = 0
  · have h1 : ¬t.val = 31 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    rw [PhiS1_castSucc V c t, PhiS1_zero V c _ _ h0]
    iintro ⟨⟨HS0, Hoth, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0]
      · unfold owns; iexists _; isplitr
        swap; · iexact HS0
        ipureintro; exact View.read_writes_of_cover _ _ _ _ _ (scover1_A c _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    iexists _; iexact H3
  · by_cases h1 : t.val = 31
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ h0]
      iintro ⟨⟨HS0, Hoth, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0]
        · unfold owns; iexists _; isplitr
          swap; · iexact HS0
          ipureintro; exact View.read_writes_of_cover _ _ _ _ _ (scover1_C c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ h0]
      iintro ⟨⟨HS0, Hoth, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0]
        · unfold owns; iexists _; isplitr
          swap; · iexact HS0
          ipureintro; exact View.read_writes_of_cover _ _ _ _ _ (scover1_B c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdealFr.K2.lean ====
/-
  The third kernel region (wavelets · scaled, accumulated over 32 column blocks of 256 in a scratch and stored at the last
  point): what its runs and proof data are stated over — the blocks, where the body's two branches are taken, where the
  result window is idle, the memrefs, and the scoped buffers the pipeline does not stage with the accumulator singled out.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-- The first branch (reset the accumulator) is taken: the grid coordinate is 0. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- The second branch (store the result) is taken: the grid coordinate is 31. -/
abbrev cond2_1 (i : grid2.Coords) : Prop := k2_cond2 i = 1#1
theorem hcond2_1 : ∀ t : Fin cfg2.N, cond2_1 (grid2.coords t) ↔ t.val = 31 :=
  (by decide +kernel : ∀ t : Fin grid2.N, cond2_1 (grid2.coords t) ↔ t.val = 31)

theorem liveAt2_0 : ∀ t : Fin cfg2.N, cfg2.idle 0 (grid2.coords t) = false := by decide +kernel
theorem liveAt2_1 : ∀ t : Fin cfg2.N, cfg2.idle 1 (grid2.coords t) = false := by decide +kernel
/-- Off the last point the result window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- The result window's staging buffer as a view, through which its contents are stated. -/
abbrev VO2_2 : View sig .tc .vmem S8192x128 .f32 := (Memref.whole cc2_stg2_0 : Memref sig .tc .vmem S8192x128 .f32).view
abbrev ms2_0 (t : Fin cfg2.N) : Memref sig .tc .vmem S8192x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S8192x128 .f32 := Memref.whole cc2_scratch0
abbrev VS2 : View sig .tc .vmem S8192x128 .f32 := scM2.view

/-- The scoped buffers region 2 neither stages nor uses (the other two regions' staging buffers and the second region's
    accumulator), each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The unstaged scoped buffers, with the accumulator taken out as a memref owned at some contents. -/
theorem scoped2_split (c : Dev nD) :
    (Pipeline.scopedRest (Ix := Unit) (Name := ℕ) (U := UR sig nD τ) (Lvl := ℕ) (Val := Elt F) spec2 c : sProp 𝕄)
      ⊢ iprop((∃ d, owns (c : Thread nD τ) scM2 fullShare d) ∗ others2 (F := F) c) := by
  rw [scopedRest2_eq]; unfold others2; simp only [scM2, owns_whole]
  iintro ⟨H0, H1, H2, H3, H4, H5, H6, H7, H8, H9, H10, H11, HS⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem scoped2_join (c : Dev nD) :
    iprop((∃ d, owns (c : Thread nD τ) scM2 fullShare d) ∗ others2 (F := F) c)
      ⊢ (Pipeline.scopedRest (Ix := Unit) (Name := ℕ) (U := UR sig nD τ) (Lvl := ℕ) (Val := Elt F) spec2 c : sProp 𝕄) := by
  rw [scopedRest2_eq]; unfold others2; simp only [scM2, owns_whole]
  iintro ⟨HS, H0, H1, H2, H3, H4, H5, H6, H7, H8, H9, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

end Cert.KernelIdeal.Fr

end
-- ==== Proof.KernelIdealFr.R2RunA.lean ====
/-
  The third kernel region's body at the first grid point (the accumulator is reset, then the first partial product is
  added; the result window is left alone): the pieces its stores leave in the accumulator, with the triple.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.K2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : cond2_0 i) (hc1 : ¬cond2_1 i)
    (x0 : Vec F S8192x256 .f32) (x1 : Vec F S256x128 .f32) :
    { LS0 : List (View.Piece (Elt F) S8192x128 .f32) //
      ∀ (xi2 : Vec F S8192x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__out_kernel i arg1 harg1 arg2 harg2 arg3 harg3 arg4 harg4) K } := by
  refine ⟨?_, fun xi2 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KernelIdealFr.R2RunB.lean ====
/-
  The third kernel region's body at a middle grid point (neither branch taken: one more partial product is added to the
  accumulator; the result window is left alone): the pieces its store leaves in the accumulator, with the triple.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R2RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : ¬cond2_1 i)
    (x0 : Vec F S8192x256 .f32) (x1 : Vec F S256x128 .f32) (xs0 : Vec F S8192x128 .f32) :
    { LS0 : List (View.Piece (Elt F) S8192x128 .f32) //
      ∀ (xi2 : Vec F S8192x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__out_kernel i arg1 harg1 arg2 harg2 arg3 harg3 arg4 harg4) K } := by
  refine ⟨?_, fun xi2 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KernelIdealFr.R2RunC.lean ====
/-
  The third kernel region's body at the last grid point (the last partial product is added, then the accumulator is stored
  into the result window): the pieces its stores leave in the result's staging buffer and in the accumulator, with the
  triple.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R2RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i)
    (x0 : Vec F S8192x256 .f32) (x1 : Vec F S256x128 .f32) (xs0 : Vec F S8192x128 .f32) :
    Σ' (L2 : List (View.Piece (Elt F) S8192x128 .f32)), { LS0 : List (View.Piece (Elt F) S8192x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__out_kernel i arg1 harg1 arg2 harg2 arg3 harg3 arg4 harg4) K } := by
  refine ⟨?_, ?_, fun E K => ?run⟩
  case run =>
    simp only [cc2__out_kernel_eq_skeleton]; unfold cc2__out_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KernelIdealFr.R2Defs.lean ====
/-
  The third kernel region: what each control case leaves in the accumulator and in the result's staging buffer, the
  accumulator and result point by point (reset-and-add at point 0, add afterwards, and at point 31 also the store), the
  invariant between points (the accumulator at what the point before left), and the region's proof data at any entry
  contents `V`.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in the accumulator: its pieces read back. -/
def sout2_A (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : cond2_0 i) (hc1 : ¬cond2_1 i) (x0 : Vec F S8192x256 .f32) (x1 : Vec F S256x128 .f32) : Vec F S8192x128 .f32 :=
  VS2.read (Elt F) (VS2.writes (Elt F) VS2.junk (kernelRun2_A c i arg1 harg1 arg2 harg2 arg3 harg3 arg4 harg4 hc0 hc1 x0 x1).1)
theorem scover2_A (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : cond2_0 i) (hc1 : ¬cond2_1 i) (x0 : Vec F S8192x256 .f32) (x1 : Vec F S256x128 .f32) (y : S8192x128.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S8192x128.size (by sl_kernel_rfl) y

/-- What a middle point leaves in the accumulator, over what the point before left (`xs0`). -/
def sout2_B (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : ¬cond2_1 i) (x0 : Vec F S8192x256 .f32) (x1 : Vec F S256x128 .f32) (xs0 : Vec F S8192x128 .f32) : Vec F S8192x128 .f32 :=
  VS2.read (Elt F) (VS2.writes (Elt F) VS2.junk (kernelRun2_B c i arg1 harg1 arg2 harg2 arg3 harg3 arg4 harg4 hc0 hc1 x0 x1 xs0).1)
theorem scover2_B (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : ¬cond2_1 i) (x0 : Vec F S8192x256 .f32) (x1 : Vec F S256x128 .f32) (xs0 : Vec F S8192x128 .f32) (y : S8192x128.Idx) :
    ∃ pc ∈ (kernelRun2_B c i arg1 harg1 arg2 harg2 arg3 harg3 arg4 harg4 hc0 hc1 x0 x1 xs0).1, y ∈ pc.1.set :=
  View.cover_of_tiledL (kernelRun2_B c i arg1 harg1 arg2 harg2 arg3 harg3 arg4 harg4 hc0 hc1 x0 x1 xs0).1 S8192x128.size (by sl_kernel_rfl) y

/-- What the last point leaves in the result's staging buffer and in the accumulator. -/
def out2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) : Vec F S8192x128 .f32 :=
  VO2_2.read (Elt F) (VO2_2.writes (Elt F) VO2_2.junk (kernelRun2_C c i arg1 harg1 arg2 harg2 arg3 harg3 arg4 harg4 hc0 hc1 x0 x1 xs0).1)
theorem cover2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) (y : S8192x128.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S8192x128.size (by sl_kernel_rfl) y
def sout2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) : Vec F S8192x128 .f32 :=
  VS2.read (Elt F) (VS2.writes (Elt F) VS2.junk (kernelRun2_C c i arg1 harg1 arg2 harg2 arg3 harg3 arg4 harg4 hc0 hc1 x0 x1 xs0).2.1)
theorem scover2_C (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) (y : S8192x128.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S8192x128.size (by sl_kernel_rfl) y

/-- A placeholder for the result's staging buffer at the points where the window is idle: nothing consults it. -/
def idleOut2 : Vec F S8192x128 .f32 := VO2_2.read (Elt F) VO2_2.junk

variable (V : (c : Dev nD) → (b : Ref sig .tc) → Buf (Elt F) ((c : Thread nD τ).loc b))

/-- The result's staging buffer and the accumulator after the body at position `n`. -/
def outsAt2 (c : Dev nD) : (n : ℕ) → n < cfg2.N → Vec F S8192x128 .f32 × Vec F S8192x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr rfl) (fun h => absurd ((hcond2_1 ⟨0, hn⟩).mp h) (Nat.zero_ne_add_one 30)) (iblk2 V c 0 ⟨0, hn⟩) (iblk2 V c 1 ⟨0, hn⟩))
  | n + 1, hn =>
    if h1 : n + 1 = 31 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) (h1 : ¬t.val = 31) :
    outsAt2 V c t.val t.isLt = (idleOut2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 31) :
    outsAt2 V c t.val t.isLt = (idleOut2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 31) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The invariant before position `n`: before the first point the accumulator at anything; afterwards at what the point
    before left in it; beside it the scoped buffers the region does not use and the generator register at some state. -/
def PhiS2 (c : Dev nD) : (n : ℕ) → n ≤ cfg2.N → sProp 𝕄
  | 0, _ => iprop((∃ d, owns (c : Thread nD τ) scM2 fullShare d) ∗ others2 (F := F) c ∗ (∃ r, prngReg c r))
  | n + 1, hn => iprop(owns (c : Thread nD τ) scM2 fullShare ((outsAt2 V c n hn).2) ∗ others2 (F := F) c ∗ (∃ r, prngReg c r))

theorem PhiS2_zero (c : Dev nD) (n : ℕ) (h : n ≤ cfg2.N) (hz : n = 0) :
    PhiS2 V c n h = iprop((∃ d, owns (c : Thread nD τ) scM2 fullShare d) ∗ others2 (F := F) c ∗ (∃ r, prngReg c r)) := by
  subst hz; rfl
theorem PhiS2_succ (c : Dev nD) (n : ℕ) (hn : n < cfg2.N) :
    PhiS2 V c (n + 1) hn = iprop(owns (c : Thread nD τ) scM2 fullShare ((outsAt2 V c n hn).2) ∗ others2 (F := F) c ∗ (∃ r, prngReg c r)) := rfl
theorem PhiS2_pos (c : Dev nD) (n : ℕ) (h : n ≤ cfg2.N) (hz : n ≠ 0) :
    PhiS2 V c n h = iprop(owns (c : Thread nD τ) scM2 fullShare ((outsAt2 V c (n - 1) (by omega)).2) ∗ others2 (F := F) c ∗ (∃ r, prngReg c r)) := by
  cases n with
  | zero => exact absurd rfl hz
  | succ n => rfl

/-- The region's proof data at entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.KernelIdeal.Fr

end
-- ==== Proof.KernelIdealFr.R2Body.lean ====
/-
  The third kernel region's body obligation at every grid point: the input buffers hold their blocks, the point's case is
  read off its position, the accumulator enters at what the point before left (at anything at point 0) and leaves at this
  point's contents, the result window is handed back untouched where it is idle and at the accumulator at the last point;
  the unused scoped buffers and the generator register pass through.
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 32 := lt_of_lt_of_eq t.isLt (show cfg2.N = 32 from N_2)
  by_cases h0 : t.val = 0
  · have h1 : ¬t.val = 31 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    rw [PhiS2_castSucc V c t, PhiS2_zero V c _ _ h0]
    iintro ⟨⟨HS0, Hoth, Hg⟩, Ho, ⟨%d0, H0⟩, ⟨%d1, H1⟩, ⟨%d2, H2⟩⟩
    iapply ((kernelRun2_A c (grid2.coords t) _ _ _ _ _ _ _ _ ((hcond2_0 t).mpr h0) (fun h => h1 ((hcond2_1 t).mp h)) (iblk2 V c 0 t) (iblk2 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0]
      · unfold owns; iexists _; isplitr
        swap; · iexact HS0
        ipureintro; exact View.read_writes_of_cover _ _ _ _ _ (scover2_A c _ _ _ _ _ _ _ _ _ _ _ _ _)
      isplitl [Hoth]; · iexact Hoth
      iexact Hg
    isplitl [Ho]; · iexact Ho
    isplitl [H0]; · iexact H0
    isplitl [H1]; · iexact H1
    iexists _; iexact H2
  · by_cases h1 : t.val = 31
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ h0]
      iintro ⟨⟨HS0, Hoth, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover2_C c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ h0]
      iintro ⟨⟨HS0, Hoth, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover2_B c _ _ _ _ _ _ _ _ _ _ _ _ _ _)
        isplitl [Hoth]; · iexact Hoth
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KernelIdealFr.Run.lean ====
/-
  The kernel program as a whole: the unscoped buffers' contents at every boundary between @main's items (the launch memory;
  after the first region its result array at what the region's write-backs leave; after the reshape of the filter; after the
  second and third regions likewise), each region as a segment entered from and left at those contents, and the run: every
  weakly fair execution of @main terminates with every unscoped buffer at the last boundary's contents. Read at the
  argument arrays these are the launch contents (no item writes an argument).
-/
import proofs.«113810_j55422257988357_1_alg».proof.Proof.Gen.KernelIdeal.Launch
import proofs.«113810_j55422257988357_1_alg».proof.Proof.Gen.KernelIdeal.Skeleton
import proofs.«113810_j55422257988357_1_alg».proof.Proof.Gen.KernelIdeal.Points
import proofs.«113810_j55422257988357_1_alg».proof.Proof.KernelIdealFr.R0
import proofs.«113810_j55422257988357_1_alg».proof.Proof.KernelIdealFr.R1Body
import proofs.«113810_j55422257988357_1_alg».proof.Proof.KernelIdealFr.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch (the first region's entry). -/
abbrev W0 : Dev nD → Valuation τ sig (Elt F) := fun c b => m (c, b)
abbrev Ve0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After the reshape of the filter into a column (the second region's entry). -/
abbrev W2 : Dev nD → Valuation τ sig (Elt F) := fun c => StableHlo.after hostOps1 (W1 m c)
abbrev Ve2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (Ve2 m) c).arrAt w cfg1.N
theorem W3_arr (c : Dev nD) (w : Fin cfg1.W) :
    W3 m c (Proc.devRef .tc (Pipeline.arrRef spec1 w)) = (dat1 (Ve2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ve3 : (c : Dev nD) → (b : Ref sig .tc) → Buf (Elt F) ((c : Thread nD τ).loc b) := fun c b => W3 m c b
theorem hF1 (c : Dev nD) (w : Fin cfg1.W) : (dat1 (Ve2 m) c).arrAt w cfg1.N = Ve3 m c (Pipeline.arrRef spec1 w) :=
  (W3_arr m c w).symm
theorem hrest1 (c : Dev nD) : ∀ b, b ∉ Finset.univ.image (Pipeline.arrRef spec1) → Ve3 m c b = Ve2 m c b :=
  fun b hb => W3_of_ne m c b fun w e => hb (Finset.mem_image.mpr ⟨w, Finset.mem_univ _, e⟩)
/-- After the third region (the end of @main). -/
def W4 (c : Dev nD) : Valuation τ sig (Elt F) :=
  Pipeline.withArrays spec2 c (W3 m c) fun w => (dat2 (Ve3 m) c).arrAt w cfg2.N
theorem W4_arr (c : Dev nD) (w : Fin cfg2.W) :
    W4 m c (Proc.devRef .tc (Pipeline.arrRef spec2 w)) = (dat2 (Ve3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev Ve4 : (c : Dev nD) → (b : Ref sig .tc) → Buf (Elt F) ((c : Thread nD τ).loc b) := fun c b => W4 m c b
theorem hF2 (c : Dev nD) (w : Fin cfg2.W) : (dat2 (Ve3 m) c).arrAt w cfg2.N = Ve4 m c (Pipeline.arrRef spec2 w) :=
  (W4_arr m c w).symm
theorem hrest2 (c : Dev nD) : ∀ b, b ∉ Finset.univ.image (Pipeline.arrRef spec2) → Ve4 m c b = Ve3 m c b :=
  fun b hb => W4_of_ne m c b fun w e => hb (Finset.mem_image.mpr ⟨w, Finset.mem_univ _, e⟩)

/-- The reshape writes the filter column only. -/
theorem hostKeeps (c : Dev nD) (b : Ref sig .tc) (hb : b ≠ main_v1) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := hostKeeps m c main_arg0 (by decide)
    _ = W0 m c (Proc.devRef .tc main_arg0) := (W1_arr m c 0).trans (((dat0 (Ve0 m) c).arrAt_in 0 rfl _).trans (A_eq0 (Ve0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (Ve3 m) c).arrAt_in 0 rfl _).trans (A_eq2 (Ve3 m) c 0))
    _ = W2 m c (Proc.devRef .tc main_arg1) := W3_of_ne m c main_arg1 (by decide)
    _ = W1 m c (Proc.devRef .tc main_arg1) := hostKeeps m c main_arg1 (by decide)
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 0).trans (((dat1 (Ve2 m) c).arrAt_in 0 rfl _).trans (A_eq1 (Ve2 m) c 0))
    _ = W1 m c (Proc.devRef .tc main_arg2) := hostKeeps m c main_arg2 (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := hostKeeps m c main_arg3 (by decide)
    _ = W0 m c (Proc.devRef .tc main_arg3) := (W1_arr m c 1).trans (((dat0 (Ve0 m) c).arrAt_in 1 rfl _).trans (A_eq0 (Ve0 m) c 1))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := hostKeeps m c main_arg4 (by decide)
    _ = W0 m c (Proc.devRef .tc main_arg4) := W1_of_ne m c main_arg4 (by decide)
    _ = m ((c : Thread nD τ).loc main_arg4) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve2 m) c
  | ⟨2, _⟩ => fun c => dat2 (Ve3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (Ve2 m) c 0 (Nat.zero_le _) from rfl, PhiS1_zero (Ve2 m) c 0 _ rfl]
    iintro ⟨Hp, -, Hr⟩
    ihave H := (scoped1_split (F := F) c) $$ Hr
    icases H with ⟨HS, Hoth⟩
    isplitl [HS]; · iexact HS
    isplitl [Hoth]; · iexact Hoth
    iexact Hp
  hout c := by
    rw [Pipeline.ownSems0_none, show (pdats m 1 c).Φ (Fin.last _) = PhiS1 (Ve2 m) c (Fin.last cfg1.N).val (Nat.le_of_lt_succ (Fin.last cfg1.N).isLt) from rfl,
      PhiS1_pos (Ve2 m) c _ _ (by rw [Fin.val_last]; have : cfg1.N = 32 := N_1; omega)]
    iintro ⟨HS, Hoth, Hp⟩
    isplitl [Hp]; · iexact Hp
    isplitr; · iempintro
    iapply (scoped1_join (F := F) c)
    isplitl [HS]; · iexists _; iexact HS
    iexact Hoth
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = PhiS2 (Ve3 m) c 0 (Nat.zero_le _) from rfl, PhiS2_zero (Ve3 m) c 0 _ rfl]
    iintro ⟨Hp, -, Hr⟩
    ihave H := (scoped2_split (F := F) c) $$ Hr
    icases H with ⟨HS, Hoth⟩
    isplitl [HS]; · iexact HS
    isplitl [Hoth]; · iexact Hoth
    iexact Hp
  hout c := by
    rw [Pipeline.ownSems0_none, show (pdats m 2 c).Φ (Fin.last _) = PhiS2 (Ve3 m) c (Fin.last cfg2.N).val (Nat.le_of_lt_succ (Fin.last cfg2.N).isLt) from rfl,
      PhiS2_pos (Ve3 m) c _ _ (by rw [Fin.val_last]; have : cfg2.N = 32 := N_2; omega)]
    iintro ⟨HS, Hoth, Hp⟩
    isplitl [Hp]; · iexact Hp
    isplitr; · iempintro
    iapply (scoped2_join (F := F) c)
    isplitl [HS]; · iexists _; iexact HS
    iexact Hoth
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve3 m c) (Ve4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Fr

end
-- ==== Proof.Spec.lean ====
/-
  The mathematics both programs compute, entry by entry over the extended reals:
  out = wavelets · ((wavelets⁻¹ · (features · weight)) scaled row-wise by the filter).
  A matrix product is the sum over the contracted axis; scaling multiplies row r by the filter's entry r.
-/
import Idealize.ShloMosaic.PureOps.Ideal
import Idealize.ShloMosaic.Lib.ValueIdx

noncomputable section

namespace Cert.Spec

open Idealize.ShloMosaic Idealize.ShloMosaic.ValueIdx

/-- Entry (r, c) of the product of an M×K and a K×N matrix. -/
def mmAt {M K N : Nat} (a : (⟨2, ![M, K]⟩ : Shape).Idx → EReal) (b : (⟨2, ![K, N]⟩ : Shape).Idx → EReal) (r : Fin M) (c : Fin N) : EReal :=
  ∑ k : Fin K, a (ix2 r k) * b (ix2 k c)

/-- The product of an M×K and a K×N matrix. -/
def mm {M K N : Nat} (a : (⟨2, ![M, K]⟩ : Shape).Idx → EReal) (b : (⟨2, ![K, N]⟩ : Shape).Idx → EReal) : (⟨2, ![M, N]⟩ : Shape).Idx → EReal :=
  fun i => mmAt a b (i 0) (i 1)

theorem mm_apply {M K N : Nat} (a : (⟨2, ![M, K]⟩ : Shape).Idx → EReal) (b : (⟨2, ![K, N]⟩ : Shape).Idx → EReal) (r : Fin M) (c : Fin N) :
    mm a b (ix2 r c) = ∑ k : Fin K, a (ix2 r k) * b (ix2 k c) := rfl

/-- Row r of an M×N matrix multiplied by entry r of an M×1 column. -/
def scaleRows {M N : Nat} (x : (⟨2, ![M, N]⟩ : Shape).Idx → EReal) (f : (⟨2, ![M, 1]⟩ : Shape).Idx → EReal) : (⟨2, ![M, N]⟩ : Shape).Idx → EReal :=
  fun i => x i * f (ix2 (i 0) (0 : Fin 1))

theorem scaleRows_apply {M N : Nat} (x : (⟨2, ![M, N]⟩ : Shape).Idx → EReal) (f : (⟨2, ![M, 1]⟩ : Shape).Idx → EReal) (r : Fin M) (c : Fin N) :
    scaleRows x f (ix2 r c) = x (ix2 r c) * f (ix2 r (0 : Fin 1)) := rfl

/-- A length-M vector as an M×1 column. -/
def colOf {M : Nat} (f : (⟨1, ![M]⟩ : Shape).Idx → EReal) : (⟨2, ![M, 1]⟩ : Shape).Idx → EReal :=
  fun i => f (ix1 (i 0))

theorem colOf_apply {M : Nat} (f : (⟨1, ![M]⟩ : Shape).Idx → EReal) (r : Fin M) (z : Fin 1) : colOf f (ix2 r z) = f (ix1 r) := rfl

/-- The whole computation. -/
def G (feat : (⟨2, ![8192, 256]⟩ : Shape).Idx → EReal) (wav winv : (⟨2, ![8192, 8192]⟩ : Shape).Idx → EReal)
    (w : (⟨2, ![256, 128]⟩ : Shape).Idx → EReal) (filt : (⟨1, ![8192]⟩ : Shape).Idx → EReal) : (⟨2, ![8192, 128]⟩ : Shape).Idx → EReal :=
  mm wav (scaleRows (mm winv (mm feat w)) (colOf filt))

end Cert.Spec

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.KernelIdealVal.Val0.lean ====
/-
  The first kernel region computes the projection features · weight, one block of 1024 rows per grid point.

  * The body's result block at (p, q) is the sum over k of (feature block) (p, k) * weight (k, q): the two
    truncations are the identity over the extended reals and the product accumulates into the zero block.
  * Grid point t reads feature rows 1024 t … 1024 t + 1023 and the whole weight, and writes result rows
    1024 t … 1024 t + 1023; so what it writes back is that row block of the product of the two whole arrays.
  * Row r lies in the block of point r / 1024, so the eight blocks cover the result, and the result array after the
    region is the product features · weight.
-/
import proofs.«113810_j55422257988357_1_alg».proof.Proof.KernelIdealFr.R0
import proofs.«113810_j55422257988357_1_alg».proof.Proof.Spec
import proofs.«113810_j55422257988357_1_alg».proof.Proof.LibPlainDot
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The whole-block rectangles start at the origin. -/
theorem origin_eq : (![0, 0] : Fin 2 → Nat) = fun _ => 0 := funext fun a => by fin_cases a <;> rfl

/-- The body's product at (p, q): the sum over the 256 contracted positions of lhs (p, k) * rhs (k, q). The two
    truncations are the identity over the extended reals; the accumulator is the zero block. -/
theorem projPayload_apply (x0 : Vec Ideal S1024x256 .f32) (x1 : Vec Ideal S256x128 .f32) (p : Fin 1024) (q : Fin 128) :
    k0_pay1 (F := Ideal) x0 x1 (ix2 p q) = ∑ k : Fin 256, x0 (ix2 p k) * x1 (ix2 k q) := by
  unfold k0_pay1
  exact Cert.LibPlainDot.matmul_plain_apply 1024 256 128 x0 x1 p q

/-- The result block after the body, at (p, q): the same sum over the two input blocks. -/
theorem projBlock_apply (x0 : Vec Ideal S1024x256 .f32) (x1 : Vec Ideal S256x128 .f32) (p : Fin 1024) (q : Fin 128) :
    out0_2 (F := Ideal) x0 x1 (ix2 p q) = ∑ k : Fin 256, x0 (ix2 p k) * x1 (ix2 k q) := by
  unfold out0_2
  rw [View.canon_unit_zero origin_eq]
  simp only [View.ld_unit_zero (S := S1024x256) origin_eq, View.ld_unit_zero (S := S256x128) origin_eq]
  exact projPayload_apply x0 x1 p q

/-- When row p of the left block is row r of a whole array A and column q of the right block is column s of a whole
    array B, the result block at (p, q) is the product A · B at (r, s). -/
theorem projBlock_eq_mm (A : S8192x256.Idx → EReal) (B : S256x128.Idx → EReal)
    (x0 : Vec Ideal S1024x256 .f32) (x1 : Vec Ideal S256x128 .f32) (p : Fin 1024) (q : Fin 128) (r : Fin 8192) (s : Fin 128)
    (h0 : ∀ k : Fin 256, x0 (ix2 p k) = A (ix2 r k)) (h1 : ∀ k : Fin 256, x1 (ix2 k q) = B (ix2 k s)) :
    out0_2 (F := Ideal) x0 x1 (ix2 p q) = Cert.Spec.mm A B (ix2 r s) := by
  rw [projBlock_apply, Cert.Spec.mm_apply]
  exact Finset.sum_congr rfl fun k _ => by rw [h0 k, h1 k]

variable (V : (c : Dev nD) → (b : Ref sig .tc) → Buf (Elt Ideal) ((c : Thread nD τ).loc b))

/-- The block indices at grid point t: the features' and the result's blocks are row block t, column block 0; the
    weight's is its one block. -/
theorem blockIdx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is row block t of the product features · weight of the arrays as the region
    finds them: a block's coordinate is block index × block size + the coordinate inside the block, the features'
    rows move with the result's rows, and the weight is read whole. -/
theorem projFlushed_eq (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  obtain ⟨e00, e01, e10, e11, e20, e21⟩ := blockIdx_facts t
  funext j
  have hj0 : (j 0).val < 1024 := (j 0).isLt
  have hj1 : (j 1).val < 128 := (j 1).isLt
  have ej : (cfg0.win 2).xinj (grid0.coords t) j = ix2 (⟨(j 0).val, hj0⟩ : Fin 1024) (⟨(j 1).val, hj1⟩ : Fin 128) :=
    funext fun a => Fin.ext (by
      match a with
      | ⟨0, _⟩ => rfl
      | ⟨1, _⟩ => rfl)
  show out0_2 (iblk0 V c 0 t) (iblk0 V c 1 t) ((cfg0.win 2).xinj (grid0.coords t) j)
    = Cert.Spec.mm (V c main_arg0) (V c main_arg3) (((cfg0.win 2).blk t).view.emb j)
  refine (congrArg (out0_2 (iblk0 V c 0 t) (iblk0 V c 1 t)) ej).trans ?_
  refine (projBlock_eq_mm (V c main_arg0) (V c main_arg3) (iblk0 V c 0 t) (iblk0 V c 1 t) ⟨(j 0).val, hj0⟩ ⟨(j 1).val, hj1⟩
    ((((cfg0.win 2).blk t).view.emb j) 0) ((((cfg0.win 2).blk t).view.emb j) 1) (fun k => ?_) (fun k => ?_)).trans ?_
  · show V c main_arg0 (((cfg0.win 0).blk t).view.emb (ix2 (⟨(j 0).val, hj0⟩ : Fin 1024) k)) = V c main_arg0 _
    refine congrArg (V c main_arg0) ?_
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 256 + 1 * k.val = k.val; omega
  · show V c main_arg3 (((cfg0.win 1).blk t).view.emb (ix2 k (⟨(j 1).val, hj1⟩ : Fin 128))) = V c main_arg3 _
    refine congrArg (V c main_arg3) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  · exact congrArg (Cert.Spec.mm (V c main_arg0) (V c main_arg3)) (eq_ix2 (((cfg0.win 2).blk t).view.emb j)).symm

/-- An index of the result is in point t's block iff each coordinate is in the block's range on its axis. -/
theorem mem_projBlock (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- Every index of the result is in some point's block: row r is in the block of point r / 1024. -/
theorem rowBlocks_cover (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, e20, e21⟩ := blockIdx_facts t
  refine ⟨t, flush0_2 t, ?_⟩
  rw [mem_projBlock]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 128 ≤ (i 1).val ∧ (i 1).val < win0_2.index t (1 : Fin 2) * 128 + 128
    omega

/-- The result array after the region: the product features · weight of the arrays as the region finds them. -/
theorem arr0 (c : Dev nD) :
    (dat0 (F := Ideal) V c).arrAt 2 cfg0.N = Cert.Spec.mm (V c main_arg0) (V c main_arg3) :=
  (dat0 V c).arrAt_eq_of_cover 2 (Cert.Spec.mm (V c main_arg0) (V c main_arg3)) (fun t _ => projFlushed_eq V c t) rowBlocks_cover

end Cert.KernelIdeal.Val

end
-- ==== Proof.KernelIdealVal.Final.lean ====
/-
  The idealized kernel program's result array at the end of @main, as one function of the launch arguments: chaining the
  three regions' results through the boundaries' contents — the first region leaves features · weight; the reshape turns
  the filter into a column; the second region leaves (wavelets⁻¹ · that) with row r scaled by the filter's entry r; the
  third leaves wavelets · that.
-/
import proofs.«113810_j55422257988357_1_alg».proof.Proof.KernelIdealFr.Run
import proofs.«113810_j55422257988357_1_alg».proof.Proof.KernelIdealVal.Val0
import proofs.«113810_j55422257988357_1_alg».proof.Proof.Spec
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ)

/-- At the second region's entry the filter column holds the filter: entry (r, 0) is the filter's entry r. -/
theorem filt_col (c : Dev nD) : Ve2 (F := Ideal) m c main_v1 = Cert.Spec.colOf (m ((c : Thread nD τ).loc main_arg4)) := by
  show StableHlo.after hostOps1 (W1 m c) (Proc.devRef .tc main_v1) = _
  after_results
  funext i
  obtain ⟨r, z, rfl⟩ : ∃ (r : Fin 8192) (z : Fin 1), i = ix2 r z := ⟨i 0, i 1, eq_ix2 i⟩
  show shapeCast S8192x1 (W1 m c (Proc.devRef .tc main_arg4)) shapeCasts_S8192_S8192x1 (ix2 r z) = _
  rw [Cert.Spec.colOf_apply]
  refine (shapeCast_apply _ _ (ix2 r z) (ix1 r) ?_).trans (congrFun (W1_of_ne m c main_arg4 (by decide)) (ix1 r))
  rw [Shape.rowMajor_val_one, Shape.rowMajor_val_two]
  have hz : z.val = 0 := by have := z.isLt; omega
  show r.val = r.val * 1 + z.val
  rw [hz, Nat.mul_one, Nat.add_zero]

/-- The result array at the end, given what the second and third regions leave (their value statements). -/
theorem out_eq
    (h1 : ∀ (V : (c : Dev nD) → (b : Ref sig .tc) → Buf (Elt Ideal) ((c : Thread nD τ).loc b)) (c : Dev nD),
      (dat1 (F := Ideal) V c).arrAt 3 cfg1.N = Cert.Spec.scaleRows (Cert.Spec.mm (V c main_arg2) (V c main_v0)) (V c main_v1))
    (h2 : ∀ (V : (c : Dev nD) → (b : Ref sig .tc) → Buf (Elt Ideal) ((c : Thread nD τ).loc b)) (c : Dev nD),
      (dat2 (F := Ideal) V c).arrAt 2 cfg2.N = Cert.Spec.mm (V c main_arg1) (V c main_v2))
    (c : Dev nD) :
    W4 (F := Ideal) m c (Proc.devRef .tc main_v3)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) := by
  have e0 : Ve2 m c main_v0 = Cert.Spec.mm (m ((c : Thread nD τ).loc main_arg0)) (m ((c : Thread nD τ).loc main_arg3)) :=
    (hostKeeps m c main_v0 (by decide)).trans ((W1_arr m c 2).trans (arr0 (Ve0 m) c))
  have e2 : Ve2 m c main_arg2 = (m ((c : Thread nD τ).loc main_arg2)) :=
    (hostKeeps m c main_arg2 (by decide)).trans (W1_of_ne m c main_arg2 (by decide))
  have e1 : Ve3 m c main_v2 = Cert.Spec.scaleRows (Cert.Spec.mm (m ((c : Thread nD τ).loc main_arg2)) (Cert.Spec.mm (m ((c : Thread nD τ).loc main_arg0)) (m ((c : Thread nD τ).loc main_arg3)))) (Cert.Spec.colOf (m ((c : Thread nD τ).loc main_arg4))) := by
    refine (W3_arr m c 3).trans ((h1 (Ve2 m) c).trans ?_)
    rw [e0, e2, filt_col m c]
  have e3 : Ve3 m c main_arg1 = (m ((c : Thread nD τ).loc main_arg1)) :=
    (W3_of_ne m c main_arg1 (by decide)).trans ((hostKeeps m c main_arg1 (by decide)).trans (W1_of_ne m c main_arg1 (by decide)))
  refine (W4_arr m c 2).trans ((h2 (Ve3 m) c).trans ?_)
  rw [e1, e3]
  rfl

end Cert.KernelIdeal.Val

end
-- ==== Proof.KernelIdealVal.Val1.lean ====
/-
  The second kernel region's value at the ideal instance (extended reals): the result array after the region is the
  product of the inverse transform (8192 × 8192) and the transformed features (8192 × 128), each row r multiplied by
  entry r of the filter column.

  The region walks 32 grid points. Point t sees column block t (256 columns) of the inverse transform and row block t
  (256 rows) of the transformed features; an accumulator of the result's size is set to zero at point 0, gains the
  blocks' partial product at every point, and at point 31 is multiplied row-wise by the filter column and stored as the
  result. In order:

    * what each control case leaves in the accumulator and in the result's staging buffer, as the arithmetic payloads
      applied to the blocks (sout_A, sout_B, sout_C, out_C), for any float values;
    * the payloads at an entry over the extended reals: zero; old entry plus the sum over the block's 256 columns;
      entry times the filter's entry of that row (pay1_apply, pay2_apply, pay3_apply);
    * a block's entry is the array's entry at block index × block size + the coordinate inside the block (blkA_apply,
      blkB_apply, blkF_apply);
    * by induction on the point, the accumulator after point n holds the sum of the first 256 (n + 1) terms of the
      contraction (acc_eq); 32 × 256 = 8192 terms are the whole contraction (terms_eq), so the last point's store is
      the scaled product (res_eq);
    * the result window is written back at point 31 only and its block is the whole array, so the array ends holding
      that store (flushed_eq, arr1).

  The helper lemmas live in the sub-namespace R1; the region's statement arr1 is at the namespace's top.

  Sums over the extended reals are regrouped by associativity and commutativity of + only (0 + x = x, a range split in
  two); nothing is subtracted or cancelled, so no finiteness is needed.
-/
import proofs.«113810_j55422257988357_1_alg».proof.Proof.KernelIdealFr.R1Defs
import proofs.«113810_j55422257988357_1_alg».proof.Proof.Spec
import proofs.«113810_j55422257988357_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Fr
open Idealize.ShloMosaic.ValueIdx

namespace R1

section Pieces
variable {F : FTy → Type} [FloatOps F]

theorem hz : (![0, 0] : Fin 2 → Nat) = fun _ => 0 := funext fun a => by fin_cases a <;> rfl

/-- The first point leaves in the accumulator the zero block plus the first partial product. -/
theorem sout_A (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : cond1_0 i) (hc1 : ¬cond1_1 i)
    (x0 : Vec F S8192x256 .f32) (x1 : Vec F S256x128 .f32) (x2 : Vec F S8192x1 .f32) :
    sout1_A c i arg1 harg1 arg2 harg2 arg3 harg3 arg4 harg4 arg5 harg5 hc0 hc1 x0 x1 x2 = k1_pay2 x0 x1 (k1_pay1 (F := F)) := by
  unfold sout1_A
  rw [View.read_writes_eq_canon _ _ _ (scover1_A c i arg1 harg1 arg2 harg2 arg3 harg3 arg4 harg4 arg5 harg5 hc0 hc1 x0 x1 x2)]
  unfold kernelRun1_A
  dsimp only
  sl_unfold_words
  rw [View.canon_cons_unit_zero (S := S8192x128) hz, View.readCov_unit_zero (S := S8192x128) _ hz]
  simp only [View.readAt_eq_ld, harg1.read_unread, harg2.read_unread, View.ld_unit_zero (S := S8192x256) hz, View.ld_unit_zero (S := S256x128) hz]

/-- A middle point leaves in the accumulator what the point before left plus its partial product. -/
theorem sout_B (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : ¬cond1_1 i)
    (x0 : Vec F S8192x256 .f32) (x1 : Vec F S256x128 .f32) (x2 : Vec F S8192x1 .f32) (xs0 : Vec F S8192x128 .f32) :
    sout1_B c i arg1 harg1 arg2 harg2 arg3 harg3 arg4 harg4 arg5 harg5 hc0 hc1 x0 x1 x2 xs0 = k1_pay2 x0 x1 xs0 := by
  unfold sout1_B
  rw [View.read_writes_eq_canon _ _ _ (scover1_B c i arg1 harg1 arg2 harg2 arg3 harg3 arg4 harg4 arg5 harg5 hc0 hc1 x0 x1 x2 xs0)]
  unfold kernelRun1_B
  dsimp only
  sl_unfold_words
  rw [View.canon_unit_zero hz]
  simp only [View.readAt_eq_ld, harg1.read_unread, harg2.read_unread, harg5.read_unread, View.ld_unit_zero (S := S8192x256) hz, View.ld_unit_zero (S := S256x128) hz, View.ld_unit_zero (S := S8192x128) hz]

/-- The last point leaves in the accumulator what the point before left plus the last partial product, -/
theorem sout_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) :
    sout1_C c i arg1 harg1 arg2 harg2 arg3 harg3 arg4 harg4 arg5 harg5 hc0 hc1 x0 x1 x2 xs0 = k1_pay2 x0 x1 xs0 := by
  unfold sout1_C
  rw [View.read_writes_eq_canon _ _ _ (scover1_C c i arg1 harg1 arg2 harg2 arg3 harg3 arg4 harg4 arg5 harg5 hc0 hc1 x0 x1 x2 xs0)]
  unfold kernelRun1_C
  dsimp only
  sl_unfold_words
  rw [View.canon_unit_zero hz]
  simp only [View.readAt_eq_ld, harg1.read_unread, harg2.read_unread, harg5.read_unread, View.ld_unit_zero (S := S8192x256) hz, View.ld_unit_zero (S := S256x128) hz, View.ld_unit_zero (S := S8192x128) hz]

/-- and in the result's staging buffer that accumulator scaled row by row by the filter column. -/
theorem out_C (c : Dev nD) (i : grid1.Coords) (arg1 : Memref sig .tc .vmem S8192x256 .f32) (harg1 : arg1.IsWhole) (arg2 : Memref sig .tc .vmem S256x128 .f32) (harg2 : arg2.IsWhole) (arg3 : Memref sig .tc .vmem S8192x1 .f32) (harg3 : arg3.IsWhole) (arg4 : Memref sig .tc .vmem S8192x128 .f32) (harg4 : arg4.IsWhole) (arg5 : Memref sig .tc .vmem S8192x128 .f32) (harg5 : arg5.IsWhole) (hc0 : ¬cond1_0 i) (hc1 : cond1_1 i)
    (x0 : Vec F S8192x256 .f32) (x1 : Vec F S256x128 .f32) (x2 : Vec F S8192x1 .f32) (xs0 : Vec F S8192x128 .f32) :
    out1_C c i arg1 harg1 arg2 harg2 arg3 harg3 arg4 harg4 arg5 harg5 hc0 hc1 x0 x1 x2 xs0 = k1_pay3 (k1_pay2 x0 x1 xs0) x2 := by
  unfold out1_C
  rw [View.read_writes_eq_canon _ _ _ (cover1_C c i arg1 harg1 arg2 harg2 arg3 harg3 arg4 harg4 arg5 harg5 hc0 hc1 x0 x1 x2 xs0)]
  unfold kernelRun1_C
  dsimp only
  sl_unfold_words
  rw [View.canon_unit_zero hz]
  simp only [View.readAt_eq_ld, harg1.read_unread, harg2.read_unread, harg3.read_unread, harg5.read_unread, View.readCov_unit_zero (S := S8192x128) _ hz, View.ld_unit_zero (S := S8192x256) hz, View.ld_unit_zero (S := S256x128) hz, View.ld_unit_zero (S := S8192x128) hz, View.ld_unit_zero (S := S8192x1) hz]

end Pieces

section Payloads

/-- The reset block is zero everywhere. -/
theorem pay1_apply (r : Fin 8192) (q : Fin 128) : k1_pay1 (F := Ideal) (ix2 r q) = 0 := by
  have e : k1_pay1 (F := Ideal) = broadcast S8192x128 (Scalar.ofBits .f32 0x00000000#32) := by
    unfold k1_pay1
    simp only [shapeCast_self]
  rw [e]
  exact Ideal.ofBits_zero_f32

/-- The accumulation step at an entry: the old entry plus the block's partial product (the narrowing to bf16 is the
    identity on extended reals). -/
theorem pay2_apply (x0 : Vec Ideal S8192x256 .f32) (x1 : Vec Ideal S256x128 .f32) (xs : Vec Ideal S8192x128 .f32)
    (r : Fin 8192) (q : Fin 128) :
    k1_pay2 (F := Ideal) x0 x1 xs (ix2 r q) = xs (ix2 r q) + ∑ k : Fin 256, x0 (ix2 r k) * x1 (ix2 k q) := by
  have e : k1_pay2 (F := Ideal) x0 x1 xs
      = addf xs (matmul (DotDims.plain 8192 256 128) none (truncf .bf16 x0 bitsLt_bf16_f32) (truncf .bf16 x1 bitsLt_bf16_f32)
          (constant S8192x128 .f32 0x00000000#32)) := by
    unfold k1_pay2
    simp only [shapeCast_self]
    rfl
  rw [e]
  refine (addf_apply _ _ _).trans ?_
  refine congrArg (xs (ix2 r q) + ·) ?_
  exact Cert.LibPlainDot.matmul_plain_apply 8192 256 128 (truncf .bf16 x0 bitsLt_bf16_f32) (truncf .bf16 x1 bitsLt_bf16_f32) r q

/-- The scaled store at an entry: the accumulator's entry times the filter column's entry of that row. -/
theorem pay3_apply (a : Vec Ideal S8192x128 .f32) (f : Vec Ideal S8192x1 .f32) (r : Fin 8192) (q : Fin 128) :
    k1_pay3 (F := Ideal) a f (ix2 r q) = a (ix2 r q) * f (ix2 r (0 : Fin 1)) := by
  have e : k1_pay3 (F := Ideal) a f = mulf a (broadcastTo S8192x128 f broadcasts_S8192x1_S8192x128) := by
    unfold k1_pay3
    simp only [shapeCast_self]
  rw [e]
  refine (mulf_apply _ _ _).trans ?_
  refine congrArg (a (ix2 r q) * ·) ?_
  exact broadcastTo_apply f broadcasts_S8192x1_S8192x128 (ix2 r q) (ix2 r (0 : Fin 1)) (fun x => match x with
    | ⟨0, _⟩ => by show r.val = if (8192 : Nat) = 1 then 0 else r.val; rw [if_neg (by decide)]
    | ⟨1, _⟩ => by show (0 : Nat) = if (1 : Nat) = 1 then 0 else q.val; rw [if_pos rfl])

end Payloads

section Blocks
variable {F : FTy → Type} [FloatOps F]
variable (V : (c : Dev nD) → (b : Ref sig .tc) → Buf (Elt F) ((c : Thread nD τ).loc b))

/-- The inverse transform, the transformed features, the filter column: the region's three input arrays. -/
abbrev arrA (c : Dev nD) : Vec F S8192x8192 .f32 := V c main_arg2
abbrev arrB (c : Dev nD) : Vec F S8192x128 .f32 := V c main_v0
abbrev arrF (c : Dev nD) : Vec F S8192x1 .f32 := V c main_v1
/-- The three input blocks at a point. -/
abbrev blkA (c : Dev nD) (t : Fin cfg1.N) : Vec F S8192x256 .f32 := iblk1 V c 0 t
abbrev blkB (c : Dev nD) (t : Fin cfg1.N) : Vec F S256x128 .f32 := iblk1 V c 1 t
abbrev blkF (c : Dev nD) (t : Fin cfg1.N) : Vec F S8192x1 .f32 := iblk1 V c 2 t

theorem N1 : cfg1.N = 32 := N_1

theorem idx0 : ∀ t : Fin cfg1.N, win1_0.index t 0 = 0 ∧ win1_0.index t 1 = t.val :=
  (by decide +kernel : ∀ t : Fin grid1.N, win1_0.index t 0 = 0 ∧ win1_0.index t 1 = t.val)
theorem idx1 : ∀ t : Fin cfg1.N, win1_1.index t 0 = t.val ∧ win1_1.index t 1 = 0 :=
  (by decide +kernel : ∀ t : Fin grid1.N, win1_1.index t 0 = t.val ∧ win1_1.index t 1 = 0)
theorem idx2 : ∀ t : Fin cfg1.N, win1_2.index t 0 = 0 ∧ win1_2.index t 1 = 0 :=
  (by decide +kernel : ∀ t : Fin grid1.N, win1_2.index t 0 = 0 ∧ win1_2.index t 1 = 0)

/-- Column block t of the inverse transform: entry (r, k) of the block is entry (r, 256 t + k) of the array. -/
theorem blkA_apply (c : Dev nD) (t : Fin cfg1.N) (r : Fin 8192) (k : Fin 256) (h : 256 * t.val + k.val < 8192) :
    blkA V c t (ix2 r k) = arrA V c (ix2 r ⟨256 * t.val + k.val, h⟩) := by
  have hi := idx0 t
  show iblk1 V c 0 t (ix2 r k) = _
  unfold iblk1
  rw [View.read_apply]
  show V c main_arg2 _ = V c main_arg2 _
  congr 1
  funext a
  apply Fin.ext
  match a with
  | ⟨0, _⟩ => show win1_0.index t 0 * 8192 + 1 * r.val = r.val; rw [hi.1]; omega
  | ⟨1, _⟩ => show win1_0.index t 1 * 256 + 1 * k.val = 256 * t.val + k.val; rw [hi.2]; omega

/-- Row block t of the transformed features: entry (k, q) of the block is entry (256 t + k, q) of the array. -/
theorem blkB_apply (c : Dev nD) (t : Fin cfg1.N) (k : Fin 256) (q : Fin 128) (h : 256 * t.val + k.val < 8192) :
    blkB V c t (ix2 k q) = arrB V c (ix2 ⟨256 * t.val + k.val, h⟩ q) := by
  have hi := idx1 t
  show iblk1 V c 1 t (ix2 k q) = _
  unfold iblk1
  rw [View.read_apply]
  show V c main_v0 _ = V c main_v0 _
  congr 1
  funext a
  apply Fin.ext
  match a with
  | ⟨0, _⟩ => show win1_1.index t 0 * 256 + 1 * k.val = 256 * t.val + k.val; rw [hi.1]; omega
  | ⟨1, _⟩ => show win1_1.index t 1 * 128 + 1 * q.val = q.val; rw [hi.2]; omega

/-- The filter column's block is the whole column at every point. -/
theorem blkF_apply (c : Dev nD) (t : Fin cfg1.N) (r : Fin 8192) (z : Fin 1) :
    blkF V c t (ix2 r z) = arrF V c (ix2 r z) := by
  have hi := idx2 t
  show iblk1 V c 2 t (ix2 r z) = _
  unfold iblk1
  rw [View.read_apply]
  show V c main_v1 _ = V c main_v1 _
  congr 1
  funext a
  apply Fin.ext
  match a with
  | ⟨0, _⟩ => show win1_2.index t 0 * 8192 + 1 * r.val = r.val; rw [hi.1]; omega
  | ⟨1, _⟩ => show win1_2.index t 1 * 1 + 1 * z.val = z.val; rw [hi.2]; omega

end Blocks

section Invariant
variable (V : (c : Dev nD) → (b : Ref sig .tc) → Buf (Elt Ideal) ((c : Thread nD τ).loc b))

/-- Term j of the contraction for entry (r, q): the inverse transform's (r, j) times the transformed features' (j, q);
    zero past the contracted axis. -/
def term (c : Dev nD) (r : Fin 8192) (q : Fin 128) (j : ℕ) : EReal :=
  if h : j < 8192 then arrA V c (ix2 r ⟨j, h⟩) * arrB V c (ix2 ⟨j, h⟩ q) else 0

/-- The partial product of the blocks at point t is the sum of the 256 terms from 256 t on. -/
theorem blockSum (c : Dev nD) (t : Fin cfg1.N) (r : Fin 8192) (q : Fin 128) :
    ∑ k : Fin 256, blkA V c t (ix2 r k) * blkB V c t (ix2 k q) = ∑ j ∈ Finset.range 256, term V c r q (256 * t.val + j) := by
  rw [Finset.sum_range]
  refine Finset.sum_congr rfl fun k _ => ?_
  have h : 256 * t.val + k.val < 8192 := by have ht : t.val < 32 := lt_of_lt_of_eq t.isLt N1; have := k.isLt; omega
  rw [blkA_apply V c t r k h, blkB_apply V c t k q h]
  unfold term
  rw [dif_pos h]

/-- The accumulator after the first point. -/
theorem step_A (c : Dev nD) (t : Fin cfg1.N) (h0 : t.val = 0) (h1 : ¬t.val = 31) (r : Fin 8192) (q : Fin 128) :
    (outsAt1 V c t.val t.isLt).2 (ix2 r q) = ∑ k : Fin 256, blkA V c t (ix2 r k) * blkB V c t (ix2 k q) := by
  rw [outsAt1_A V c t h0 h1]
  dsimp only
  refine (congrFun (sout_A (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (blkA V c t) (blkB V c t) (blkF V c t)) (ix2 r q)).trans ?_
  rw [pay2_apply, pay1_apply, zero_add]

/-- The accumulator after a middle point. -/
theorem step_B (c : Dev nD) (t : Fin cfg1.N) (h0 : ¬t.val = 0) (h1 : ¬t.val = 31) (r : Fin 8192) (q : Fin 128) :
    (outsAt1 V c t.val t.isLt).2 (ix2 r q)
      = (outsAt1 V c (t.val - 1) (Nat.lt_of_le_of_lt (Nat.sub_le _ _) t.isLt)).2 (ix2 r q)
        + ∑ k : Fin 256, blkA V c t (ix2 r k) * blkB V c t (ix2 k q) := by
  rw [outsAt1_B V c t h0 h1]
  dsimp only
  refine (congrFun (sout_B (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (blkA V c t) (blkB V c t) (blkF V c t) (outsAt1 V c (t.val - 1) (Nat.lt_of_le_of_lt (Nat.sub_le _ _) t.isLt)).2) (ix2 r q)).trans ?_
  rw [pay2_apply]

/-- The accumulator after the last point. -/
theorem step_C (c : Dev nD) (t : Fin cfg1.N) (h0 : ¬t.val = 0) (h1 : t.val = 31) (r : Fin 8192) (q : Fin 128) :
    (outsAt1 V c t.val t.isLt).2 (ix2 r q)
      = (outsAt1 V c (t.val - 1) (Nat.lt_of_le_of_lt (Nat.sub_le _ _) t.isLt)).2 (ix2 r q)
        + ∑ k : Fin 256, blkA V c t (ix2 r k) * blkB V c t (ix2 k q) := by
  rw [outsAt1_C V c t h0 h1]
  dsimp only
  refine (congrFun (sout_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (blkA V c t) (blkB V c t) (blkF V c t) (outsAt1 V c (t.val - 1) (Nat.lt_of_le_of_lt (Nat.sub_le _ _) t.isLt)).2) (ix2 r q)).trans ?_
  rw [pay2_apply]

/-- The result's staging buffer after the last point. -/
theorem res_C (c : Dev nD) (t : Fin cfg1.N) (h0 : ¬t.val = 0) (h1 : t.val = 31) (r : Fin 8192) (q : Fin 128) :
    (outsAt1 V c t.val t.isLt).1 (ix2 r q)
      = ((outsAt1 V c (t.val - 1) (Nat.lt_of_le_of_lt (Nat.sub_le _ _) t.isLt)).2 (ix2 r q)
        + ∑ k : Fin 256, blkA V c t (ix2 r k) * blkB V c t (ix2 k q)) * arrF V c (ix2 r (0 : Fin 1)) := by
  rw [outsAt1_C V c t h0 h1]
  dsimp only
  refine (congrFun (out_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (blkA V c t) (blkB V c t) (blkF V c t) (outsAt1 V c (t.val - 1) (Nat.lt_of_le_of_lt (Nat.sub_le _ _) t.isLt)).2) (ix2 r q)).trans ?_
  rw [pay3_apply, pay2_apply, blkF_apply]

end Invariant

section Induction
variable (V : (c : Dev nD) → (b : Ref sig .tc) → Buf (Elt Ideal) ((c : Thread nD τ).loc b))

/-- After point n the accumulator's entry (r, q) is the sum of the first 256 (n + 1) terms of the contraction. -/
theorem acc_eq (c : Dev nD) (r : Fin 8192) (q : Fin 128) : ∀ (n : ℕ) (hn : n < cfg1.N),
    (outsAt1 V c n hn).2 (ix2 r q) = ∑ j ∈ Finset.range (256 * (n + 1)), term V c r q j
  | 0, hn => by
    refine (step_A V c ⟨0, hn⟩ rfl (by show ¬(0 : ℕ) = 31; decide) r q).trans ?_
    rw [blockSum]
    refine Finset.sum_congr rfl fun j _ => ?_
    show term V c r q (256 * 0 + j) = _
    rw [Nat.mul_zero, Nat.zero_add]
  | n + 1, hn => by
    have ih := acc_eq c r q n (Nat.lt_of_succ_lt hn)
    have hstep : (outsAt1 V c (n + 1) hn).2 (ix2 r q)
        = (outsAt1 V c n (Nat.lt_of_succ_lt hn)).2 (ix2 r q)
          + ∑ k : Fin 256, blkA V c ⟨n + 1, hn⟩ (ix2 r k) * blkB V c ⟨n + 1, hn⟩ (ix2 k q) := by
      by_cases h31 : n + 1 = 31
      · exact step_C V c ⟨n + 1, hn⟩ (Nat.succ_ne_zero n) h31 r q
      · exact step_B V c ⟨n + 1, hn⟩ (Nat.succ_ne_zero n) h31 r q
    rw [hstep, ih, blockSum]
    show _ + ∑ j ∈ Finset.range 256, term V c r q (256 * (n + 1) + j) = _
    rw [show 256 * (n + 1 + 1) = 256 * (n + 1) + 256 by omega, Finset.sum_range_add]

/-- The whole contraction: the sum of all 8192 terms is the matrix product's entry. -/
theorem terms_eq (c : Dev nD) (r : Fin 8192) (q : Fin 128) :
    ∑ j ∈ Finset.range 8192, term V c r q j = Cert.Spec.mm (arrA V c) (arrB V c) (ix2 r q) := by
  rw [Finset.sum_range, Cert.Spec.mm_apply]
  refine Finset.sum_congr rfl fun k _ => ?_
  unfold term
  rw [dif_pos k.isLt]

/-- The result's staging buffer after the last point: the product's entry times the filter's entry of that row. -/
theorem res_eq (c : Dev nD) (t : Fin cfg1.N) (h31 : t.val = 31) :
    (outsAt1 V c t.val t.isLt).1 = Cert.Spec.scaleRows (Cert.Spec.mm (arrA V c) (arrB V c)) (arrF V c) := by
  funext j
  obtain ⟨r, q, rfl⟩ : ∃ (r : Fin 8192) (q : Fin 128), j = ix2 r q := ⟨j 0, j 1, eq_ix2 j⟩
  rw [res_C V c t (by omega) h31 r q, Cert.Spec.scaleRows_apply, ← terms_eq]
  refine congrArg (· * arrF V c (ix2 r (0 : Fin 1))) ?_
  rw [acc_eq V c r q (t.val - 1), blockSum, h31]
  show _ = ∑ j ∈ Finset.range (256 * 31 + 256), term V c r q j
  rw [Finset.sum_range_add]

end Induction

section Final
variable (V : (c : Dev nD) → (b : Ref sig .tc) → Buf (Elt Ideal) ((c : Thread nD τ).loc b))

/-- What the result array ends holding: the product scaled row by row by the filter column. -/
abbrev result (c : Dev nD) : Buf (Elt Ideal) ((c : Thread nD τ).loc main_v2) :=
  Cert.Spec.scaleRows (Cert.Spec.mm (arrA V c) (arrB V c)) (arrF V c)

/-- The last point. -/
abbrev tLast : Fin cfg1.N := ⟨31, lt_of_lt_of_eq (by decide : 31 < 32) N1.symm⟩

theorem flushLast : (cfg1.win 3).flush tLast = true := (flush1_3 tLast).mpr rfl

/-- The one write-back, at the last point, writes the result: the result window's block is the whole array. -/
theorem flushed_eq (c : Dev nD) (t : Fin cfg1.N) (hf : (cfg1.win 3).flush t = true) :
    (dat1 V c).flushed 3 t = ((cfg1.win 3).blk t).view.read (Elt Ideal) (result V c) := by
  have h31 : t.val = 31 := by have := (flush1_3 t).mp hf; have := lt_of_lt_of_eq t.isLt N1; omega
  obtain rfl : t = tLast := Fin.ext h31
  show (cfg1.win 3).cut (grid1.coords tLast) ((dat1 V c).after 3 tLast) = _
  rw [after1_3, res_eq V c tLast rfl]
  have hz' : (fun a => win1_3.index tLast a * main_v2.ty.shape.size a) = fun _ => 0 := funext fun a => by fin_cases a <;> decide +kernel
  exact (Memref.read_access_unit_zero (Elt Ideal) main_v2 hz' (fun a => by rw [congrFun hz' a]; simp) (result V c)).symm

end Final

end R1

/-- The result array after the region: the product of the inverse transform and the transformed features, row r
    multiplied by the filter column's entry r. -/
theorem arr1 (V : (c : Dev nD) → (b : Ref sig .tc) → Buf (Elt Ideal) ((c : Thread nD τ).loc b)) (c : Dev nD) :
    (dat1 (F := Ideal) V c).arrAt 3 cfg1.N = Cert.Spec.scaleRows (Cert.Spec.mm (V c main_arg2) (V c main_v0)) (V c main_v1) :=
  (dat1 V c).arrAt_eq_of_cover 3 (R1.result V c) (R1.flushed_eq V c) fun i =>
    ⟨R1.tLast, R1.flushLast, by
      show i ∈ ((View.whole main_v2).slice (win1_3.rect R1.tLast)).set
      rw [View.set_slice_whole, Rect.mem_set_unit]
      intro a
      have h0 : (i 0 : Nat) < 8192 := (i 0).isLt
      have h1 : (i 1 : Nat) < 128 := (i 1).isLt
      match a with
      | ⟨0, _⟩ => show win1_3.index R1.tLast 0 * win1_3.size 0 ≤ (i 0 : Nat) ∧ (i 0 : Nat) < win1_3.index R1.tLast 0 * win1_3.size 0 + win1_3.xsize (grid1.coords R1.tLast) 0
                  rw [show win1_3.index R1.tLast 0 * win1_3.size 0 = 0 from by decide +kernel, show win1_3.xsize (grid1.coords R1.tLast) 0 = 8192 from by decide +kernel]; omega
      | ⟨1, _⟩ => show win1_3.index R1.tLast 1 * win1_3.size 1 ≤ (i 1 : Nat) ∧ (i 1 : Nat) < win1_3.index R1.tLast 1 * win1_3.size 1 + win1_3.xsize (grid1.coords R1.tLast) 1
                  rw [show win1_3.index R1.tLast 1 * win1_3.size 1 = 0 from by decide +kernel, show win1_3.xsize (grid1.coords R1.tLast) 1 = 128 from by decide +kernel]; omega⟩

end Cert.KernelIdeal.Val
end
-- ==== Proof.KernelIdealVal.Val2.lean ====
/-
  The third kernel region computes the product wavelets · scaled, accumulated over 32 column blocks of 256.

  * Each control case leaves in the accumulator the accumulation payload of the two input blocks over what the
    accumulator held (at the first point: over the zero block just stored); at the last point the result's block is a
    copy of the accumulator just updated.
  * Over the extended reals the payload at (r, q) is the carried entry plus the sum over k < 256 of lhs (r, k) * rhs (k, q):
    the truncations and the shape recasts are identities and the product accumulates into the zero block.
  * Grid point t reads columns 256 t … 256 t + 255 of the left factor and rows 256 t … 256 t + 255 of the right factor,
    so it adds the terms 256 t … 256 t + 255 of the product's entry; by induction on the point the accumulator after
    point n holds the first 256 (n + 1) terms, and after point 31 all 8192.
  * Only point 31 writes the result back and its block is the whole array, so the result array after the region is the
    product of the two arrays as the region finds them.
-/
import proofs.«113810_j55422257988357_1_alg».proof.Proof.KernelIdealFr.R2Defs
import proofs.«113810_j55422257988357_1_alg».proof.Proof.Spec
import proofs.«113810_j55422257988357_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.Tactic
open Idealize.ShloMosaic.Pipeline (Dat)

namespace Region2

/-- The whole-block rectangles start at the origin. -/
theorem origin2_eq : (![0, 0] : Fin 2 → Nat) = fun _ => 0 := funext fun a => by fin_cases a <;> rfl

section
variable {F : FTy → Type} [FloatOps F]

/-- The first point leaves in the accumulator the accumulation payload of the two input blocks over the zero block: the
    reset is stored, read back, and overwritten by the update. -/
theorem accFirst_eq (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : cond2_0 i) (hc1 : ¬cond2_1 i) (x0 : Vec F S8192x256 .f32) (x1 : Vec F S256x128 .f32) :
    sout2_A c i arg1 harg1 arg2 harg2 arg3 harg3 arg4 harg4 hc0 hc1 x0 x1 = k2_pay2 x0 x1 (k2_pay1 (F := F)) := by
  unfold sout2_A
  rw [View.read_writes_eq_canon _ _ _ (scover2_A c i arg1 harg1 arg2 harg2 arg3 harg3 arg4 harg4 hc0 hc1 x0 x1)]
  unfold kernelRun2_A
  dsimp only
  sl_unfold_words
  rw [View.canon_cons_unit_zero (S := S8192x128) origin2_eq, View.readCov_unit_zero (S := S8192x128) _ origin2_eq]
  simp only [View.readAt_eq_ld, harg1.read_unread, harg2.read_unread, View.ld_unit_zero (S := S8192x256) origin2_eq, View.ld_unit_zero (S := S256x128) origin2_eq]

/-- A middle point leaves in the accumulator the accumulation payload of the two input blocks over what the accumulator
    held. -/
theorem accMid_eq (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : ¬cond2_1 i) (x0 : Vec F S8192x256 .f32) (x1 : Vec F S256x128 .f32) (xs0 : Vec F S8192x128 .f32) :
    sout2_B c i arg1 harg1 arg2 harg2 arg3 harg3 arg4 harg4 hc0 hc1 x0 x1 xs0 = k2_pay2 x0 x1 xs0 := by
  unfold sout2_B
  rw [View.read_writes_eq_canon _ _ _ (scover2_B c i arg1 harg1 arg2 harg2 arg3 harg3 arg4 harg4 hc0 hc1 x0 x1 xs0)]
  unfold kernelRun2_B
  dsimp only
  sl_unfold_words
  rw [View.canon_unit_zero origin2_eq]
  simp only [View.readAt_eq_ld, harg1.read_unread, harg2.read_unread, harg4.read_unread, View.ld_unit_zero (S := S8192x256) origin2_eq, View.ld_unit_zero (S := S256x128) origin2_eq, View.ld_unit_zero (S := S8192x128) origin2_eq]

/-- The last point leaves the same in the accumulator, -/
theorem accLast_eq (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) :
    sout2_C c i arg1 harg1 arg2 harg2 arg3 harg3 arg4 harg4 hc0 hc1 x0 x1 xs0 = k2_pay2 x0 x1 xs0 := by
  unfold sout2_C
  rw [View.read_writes_eq_canon _ _ _ (scover2_C c i arg1 harg1 arg2 harg2 arg3 harg3 arg4 harg4 hc0 hc1 x0 x1 xs0)]
  unfold kernelRun2_C
  dsimp only
  sl_unfold_words
  rw [View.canon_unit_zero origin2_eq]
  simp only [View.readAt_eq_ld, harg1.read_unread, harg2.read_unread, harg4.read_unread, View.ld_unit_zero (S := S8192x256) origin2_eq, View.ld_unit_zero (S := S256x128) origin2_eq, View.ld_unit_zero (S := S8192x128) origin2_eq]

/-- and in the result's block a copy of it: the store's value is the accumulator read back after the update. -/
theorem resLast_eq (c : Dev nD) (i : grid2.Coords) (arg1 : Memref sig .tc .vmem S8192x256 .f32) (harg1 : arg1.IsWhole) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (hc0 : ¬cond2_0 i) (hc1 : cond2_1 i) (x0 : Vec F S8192x256 .f32) (x1 : Vec F S256x128 .f32) (xs0 : Vec F S8192x128 .f32) :
    out2_C c i arg1 harg1 arg2 harg2 arg3 harg3 arg4 harg4 hc0 hc1 x0 x1 xs0 = k2_pay2 x0 x1 xs0 := by
  unfold out2_C
  rw [View.read_writes_eq_canon _ _ _ (cover2_C c i arg1 harg1 arg2 harg2 arg3 harg3 arg4 harg4 hc0 hc1 x0 x1 xs0)]
  unfold kernelRun2_C
  dsimp only
  sl_unfold_words
  rw [View.canon_unit_zero origin2_eq, View.readCov_unit_zero (S := S8192x128) _ origin2_eq]
  simp only [View.readAt_eq_ld, harg1.read_unread, harg2.read_unread, harg4.read_unread, View.ld_unit_zero (S := S8192x256) origin2_eq, View.ld_unit_zero (S := S256x128) origin2_eq, View.ld_unit_zero (S := S8192x128) origin2_eq]
end

/-- At the extended reals the accumulation payload at (r, q) is the carried entry plus the sum over the 256 contracted
    positions of lhs (r, k) * rhs (k, q): the truncations and the shape recasts are identities. -/
theorem accPayload_apply (x0 : Vec Ideal S8192x256 .f32) (x1 : Vec Ideal S256x128 .f32) (xs : Vec Ideal S8192x128 .f32)
    (r : Fin 8192) (q : Fin 128) :
    k2_pay2 (F := Ideal) x0 x1 xs (ix2 r q) = xs (ix2 r q) + ∑ k : Fin 256, x0 (ix2 r k) * x1 (ix2 k q) := by
  unfold k2_pay2
  refine (congrFun (shapeCast_self _ _) (ix2 r q)).trans ?_
  refine (addf_apply _ _ _).trans ?_
  refine congrArg (xs (ix2 r q) + ·) ?_
  refine (Cert.LibPlainDot.matmul_plain_apply 8192 256 128 (truncf .bf16 x0 bitsLt_bf16_f32)
    (truncf .bf16 (shapeCast S256x128 x1 shapeCasts_S256x128_S256x128) bitsLt_bf16_f32) r q).trans ?_
  refine Finset.sum_congr rfl fun k _ => ?_
  exact congrArg (x0 (ix2 r k) * ·) (congrFun (shapeCast_self x1 shapeCasts_S256x128_S256x128) (ix2 k q))

/-- The reset payload is zero everywhere. -/
theorem zeroPayload_apply (r : Fin 8192) (q : Fin 128) : k2_pay1 (F := Ideal) (ix2 r q) = 0 := by
  unfold k2_pay1
  refine (congrFun (shapeCast_self _ _) (ix2 r q)).trans ?_
  exact Ideal.ofBits_zero_f32

variable (V : (c : Dev nD) → (b : Ref sig .tc) → Buf (Elt Ideal) ((c : Thread nD τ).loc b))

/-- The left factor as the region finds it (8192 × 8192), -/
abbrev wavArr (c : Dev nD) : S8192x8192.Idx → EReal := V c main_arg1
/-- the right factor as the region finds it (8192 × 128), -/
abbrev midArr (c : Dev nD) : S8192x128.Idx → EReal := V c main_v2
/-- the left factor's column block at grid point t (8192 × 256), -/
abbrev wavBlk (c : Dev nD) (t : Fin cfg2.N) : Vec Ideal S8192x256 .f32 := iblk2 V c 0 t
/-- and the right factor's row block at grid point t (256 × 128). -/
abbrev midBlk (c : Dev nD) (t : Fin cfg2.N) : Vec Ideal S256x128 .f32 := iblk2 V c 1 t

/-- The block indices at grid point t: the left factor's block is row block 0, column block t; the right factor's is
    row block t, column block 0; the result's is its one block. -/
theorem blockIdx2_facts : ∀ t : Fin cfg2.N, win2_0.index t (0 : Fin 2) = 0 ∧ win2_0.index t (1 : Fin 2) = t.val
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Entry (r, k) of the left factor's block at point t is entry (r, 256 t + k) of the left factor. -/
theorem wavBlk_apply (c : Dev nD) (t : Fin cfg2.N) (r : Fin 8192) (k : Fin 256) (h : 256 * t.val + k.val < 8192) :
    wavBlk V c t (ix2 r k) = wavArr V c (ix2 r ⟨256 * t.val + k.val, h⟩) := by
  obtain ⟨e00, e01, -, -, -, -⟩ := blockIdx2_facts t
  show V c main_arg1 (((cfg2.win 0).blk t).view.emb (ix2 r k)) = V c main_arg1 _
  refine congrArg (V c main_arg1) ?_
  funext a; apply Fin.ext
  match a with
  | ⟨0, _⟩ => show win2_0.index t (0 : Fin 2) * 8192 + 1 * r.val = r.val; omega
  | ⟨1, _⟩ => show win2_0.index t (1 : Fin 2) * 256 + 1 * k.val = 256 * t.val + k.val; omega

/-- Entry (k, q) of the right factor's block at point t is entry (256 t + k, q) of the right factor. -/
theorem midBlk_apply (c : Dev nD) (t : Fin cfg2.N) (k : Fin 256) (q : Fin 128) (h : 256 * t.val + k.val < 8192) :
    midBlk V c t (ix2 k q) = midArr V c (ix2 ⟨256 * t.val + k.val, h⟩ q) := by
  obtain ⟨-, -, e10, e11, -, -⟩ := blockIdx2_facts t
  show V c main_v2 (((cfg2.win 1).blk t).view.emb (ix2 k q)) = V c main_v2 _
  refine congrArg (V c main_v2) ?_
  funext a; apply Fin.ext
  match a with
  | ⟨0, _⟩ => show win2_1.index t (0 : Fin 2) * 256 + 1 * k.val = 256 * t.val + k.val; omega
  | ⟨1, _⟩ => show win2_1.index t (1 : Fin 2) * 128 + 1 * q.val = q.val; omega

/-- The j-th term of entry (r, q) of the product: left (r, j) * right (j, q), for j below 8192. -/
def term (c : Dev nD) (r : Fin 8192) (q : Fin 128) (j : ℕ) : EReal :=
  if h : j < 8192 then wavArr V c (ix2 r ⟨j, h⟩) * midArr V c (ix2 ⟨j, h⟩ q) else 0

/-- A sum over the first 256 n terms and the next 256 is the sum over the first 256 (n + 1). -/
theorem sum_block_step (f : ℕ → EReal) (n : ℕ) :
    ∑ j ∈ Finset.range (256 * n), f j + ∑ k : Fin 256, f (256 * n + k.val) = ∑ j ∈ Finset.range (256 * (n + 1)), f j := by
  rw [Nat.mul_succ, Finset.sum_range_add]
  exact congrArg (∑ j ∈ Finset.range (256 * n), f j + ·) (Finset.sum_range fun k => f (256 * n + k)).symm

/-- One accumulation at point t adds the terms 256 t … 256 t + 255 to the carried entry. -/
theorem acc_step (c : Dev nD) (t : Fin cfg2.N) (xs : Vec Ideal S8192x128 .f32) (r : Fin 8192) (q : Fin 128) :
    k2_pay2 (F := Ideal) (wavBlk V c t) (midBlk V c t) xs (ix2 r q)
      = xs (ix2 r q) + ∑ k : Fin 256, term V c r q (256 * t.val + k.val) := by
  refine (accPayload_apply (wavBlk V c t) (midBlk V c t) xs r q).trans ?_
  refine congrArg (xs (ix2 r q) + ·) ?_
  refine Finset.sum_congr rfl fun k _ => ?_
  have hN : cfg2.N = 32 := N_2
  have h : 256 * t.val + k.val < 8192 := by have := t.isLt; have := k.isLt; omega
  unfold term
  rw [dif_pos h, wavBlk_apply V c t r k h, midBlk_apply V c t k q h]

/-- The accumulator after point n, at (r, q): the sum of the first 256 (n + 1) terms — by induction on the point: the
    first point resets to zero and adds its 256 terms, every later point adds its 256 terms to what the point before
    left. -/
theorem acc_eq (c : Dev nD) : ∀ (n : ℕ) (hn : n < cfg2.N) (r : Fin 8192) (q : Fin 128),
    (outsAt2 (F := Ideal) V c n hn).2 (ix2 r q) = ∑ j ∈ Finset.range (256 * (n + 1)), term V c r q j := by
  intro n
  induction n with
  | zero =>
    intro hn r q
    rw [outsAt2_A V c ⟨0, hn⟩ rfl (Nat.zero_ne_add_one 30)]
    dsimp only
    refine (congrFun (accFirst_eq (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) scM2 (Memref.isWhole_whole _) ((hcond2_0 ⟨0, hn⟩).mpr rfl)
      (fun h => absurd ((hcond2_1 ⟨0, hn⟩).mp h) (Nat.zero_ne_add_one 30)) (wavBlk V c ⟨0, hn⟩) (midBlk V c ⟨0, hn⟩)) (ix2 r q)).trans ?_
    refine (acc_step V c ⟨0, hn⟩ (k2_pay1 (F := Ideal)) r q).trans ?_
    rw [zeroPayload_apply r q, ← sum_block_step (term V c r q) 0]
    rfl
  | succ n ih =>
    intro hn r q
    have hN : cfg2.N = 32 := N_2
    by_cases h31 : n + 1 = 31
    · rw [outsAt2_C V c ⟨n + 1, hn⟩ (Nat.succ_ne_zero n) h31]
      dsimp only
      refine (congrFun (accLast_eq (F := Ideal) c (grid2.coords ⟨n + 1, hn⟩) (ms2_0 ⟨n + 1, hn⟩) (hs2_0 ⟨n + 1, hn⟩) (ms2_1 ⟨n + 1, hn⟩) (hs2_1 ⟨n + 1, hn⟩)
        (ms2_2 ⟨n + 1, hn⟩) (hs2_2 ⟨n + 1, hn⟩) scM2 (Memref.isWhole_whole _) (fun h => Nat.succ_ne_zero n ((hcond2_0 ⟨n + 1, hn⟩).mp h))
        ((hcond2_1 ⟨n + 1, hn⟩).mpr h31) (wavBlk V c ⟨n + 1, hn⟩) (midBlk V c ⟨n + 1, hn⟩)
        (outsAt2 (F := Ideal) V c n (Nat.lt_of_succ_lt hn)).2) (ix2 r q)).trans ?_
      refine (acc_step V c ⟨n + 1, hn⟩ (outsAt2 (F := Ideal) V c n (Nat.lt_of_succ_lt hn)).2 r q).trans ?_
      rw [ih (Nat.lt_of_succ_lt hn) r q]
      exact sum_block_step (term V c r q) (n + 1)
    · rw [outsAt2_B V c ⟨n + 1, hn⟩ (Nat.succ_ne_zero n) h31]
      dsimp only
      refine (congrFun (accMid_eq (F := Ideal) c (grid2.coords ⟨n + 1, hn⟩) (ms2_0 ⟨n + 1, hn⟩) (hs2_0 ⟨n + 1, hn⟩) (ms2_1 ⟨n + 1, hn⟩) (hs2_1 ⟨n + 1, hn⟩)
        (ms2_2 ⟨n + 1, hn⟩) (hs2_2 ⟨n + 1, hn⟩) scM2 (Memref.isWhole_whole _) (fun h => Nat.succ_ne_zero n ((hcond2_0 ⟨n + 1, hn⟩).mp h))
        (fun h => h31 ((hcond2_1 ⟨n + 1, hn⟩).mp h)) (wavBlk V c ⟨n + 1, hn⟩) (midBlk V c ⟨n + 1, hn⟩)
        (outsAt2 (F := Ideal) V c n (Nat.lt_of_succ_lt hn)).2) (ix2 r q)).trans ?_
      refine (acc_step V c ⟨n + 1, hn⟩ (outsAt2 (F := Ideal) V c n (Nat.lt_of_succ_lt hn)).2 r q).trans ?_
      rw [ih (Nat.lt_of_succ_lt hn) r q]
      exact sum_block_step (term V c r q) (n + 1)

/-- The 8192 terms of entry (r, q) are the summands of the product's entry. -/
theorem sum_terms_eq_mm (c : Dev nD) (r : Fin 8192) (q : Fin 128) :
    ∑ j ∈ Finset.range 8192, term V c r q j = Cert.Spec.mm (V c main_arg1) (V c main_v2) (ix2 r q) := by
  rw [Cert.Spec.mm_apply, Finset.sum_range]
  refine Finset.sum_congr rfl fun k _ => ?_
  unfold term
  rw [dif_pos k.isLt]

/-- What the last point stores into the result's block, at (r, q): the product's entry — the store copies the
    accumulator just updated, which then holds all 32 · 256 terms. -/
theorem res_eq (c : Dev nD) (t : Fin cfg2.N) (h31 : t.val = 31) (r : Fin 8192) (q : Fin 128) :
    (outsAt2 (F := Ideal) V c t.val t.isLt).1 (ix2 r q) = Cert.Spec.mm (V c main_arg1) (V c main_v2) (ix2 r q) := by
  have h0 : ¬t.val = 0 := by omega
  rw [outsAt2_C V c t h0 h31]
  dsimp only
  refine (congrFun (resLast_eq (F := Ideal) c (grid2.coords t) (ms2_0 t) (hs2_0 t) (ms2_1 t) (hs2_1 t)
    (ms2_2 t) (hs2_2 t) scM2 (Memref.isWhole_whole _) (fun h => h0 ((hcond2_0 t).mp h))
    ((hcond2_1 t).mpr h31) (wavBlk V c t) (midBlk V c t)
    (outsAt2 (F := Ideal) V c (t.val - 1) (Nat.lt_of_le_of_lt (Nat.sub_le _ _) t.isLt)).2) (ix2 r q)).trans ?_
  refine (acc_step V c t (outsAt2 (F := Ideal) V c (t.val - 1) (Nat.lt_of_le_of_lt (Nat.sub_le _ _) t.isLt)).2 r q).trans ?_
  rw [acc_eq V c (t.val - 1) (Nat.lt_of_le_of_lt (Nat.sub_le _ _) t.isLt) r q, ← sum_terms_eq_mm V c r q]
  have e1 : t.val - 1 + 1 = t.val := by omega
  have e2 : 8192 = 256 * (t.val + 1) := by omega
  rw [e1, e2]
  exact sum_block_step (term V c r q) t.val

/-- What a flushing point writes back is the product read through the point's block: only the last point flushes, and
    its block is the whole array. -/
theorem resFlushed_eq (c : Dev nD) (t : Fin cfg2.N) (hf : (cfg2.win 2).flush t = true) :
    (dat2 (F := Ideal) V c).flushed 2 t
      = ((cfg2.win 2).blk t).view.read (Elt Ideal) (Cert.Spec.mm (V c main_arg1) (V c main_v2)) := by
  have hN : cfg2.N = 32 := N_2
  have h31 : t.val = 31 := by have := (flush2_2 t).mp hf; have := t.isLt; omega
  show (cfg2.win 2).cut (grid2.coords t) ((dat2 V c).after 2 t) = _
  rw [after2_2]
  obtain ⟨-, -, -, -, e20, e21⟩ := blockIdx2_facts t
  funext j
  have hj0 : (j 0).val < 8192 := (j 0).isLt
  have hj1 : (j 1).val < 128 := (j 1).isLt
  have ej : (cfg2.win 2).xinj (grid2.coords t) j = ix2 (⟨(j 0).val, hj0⟩ : Fin 8192) (⟨(j 1).val, hj1⟩ : Fin 128) :=
    funext fun a => Fin.ext (by
      match a with
      | ⟨0, _⟩ => rfl
      | ⟨1, _⟩ => rfl)
  show (outsAt2 (F := Ideal) V c t.val t.isLt).1 ((cfg2.win 2).xinj (grid2.coords t) j)
    = Cert.Spec.mm (V c main_arg1) (V c main_v2) (((cfg2.win 2).blk t).view.emb j)
  refine (congrArg (outsAt2 (F := Ideal) V c t.val t.isLt).1 ej).trans ?_
  refine (res_eq V c t h31 ⟨(j 0).val, hj0⟩ ⟨(j 1).val, hj1⟩).trans ?_
  refine congrArg (Cert.Spec.mm (V c main_arg1) (V c main_v2)) ?_
  funext a; apply Fin.ext
  match a with
  | ⟨0, _⟩ => show (j 0).val = win2_2.index t (0 : Fin 2) * 8192 + 1 * (j 0).val; omega
  | ⟨1, _⟩ => show (j 1).val = win2_2.index t (1 : Fin 2) * 128 + 1 * (j 1).val; omega

/-- An index of the result is in point t's block iff each coordinate is in the block's range on its axis. -/
theorem mem_resBlock (t : Fin cfg2.N) (i : S8192x128.Idx) :
    i ∈ ((cfg2.win 2).blk t).view.set ↔ ∀ a : Fin 2, win2_2.index t a * S8192x128.size a ≤ (i a).val
      ∧ (i a).val < win2_2.index t a * S8192x128.size a + S8192x128.size a := by
  show i ∈ ((View.whole main_v3).slice (win2_2.rect t)).set ↔ _
  rw [View.set_slice_whole, Rect.mem_set_unit]
  exact Iff.rfl

/-- Every index of the result is in the last point's block, and the last point flushes. -/
theorem lastBlock_cover (i : S8192x128.Idx) :
    ∃ t : Fin cfg2.N, (cfg2.win 2).flush t = true ∧ i ∈ ((cfg2.win 2).blk t).view.set := by
  have hi0 : (i 0).val < 8192 := (i 0).isLt
  have hi1 : (i 1).val < 128 := (i 1).isLt
  have hN : cfg2.N = 32 := N_2
  obtain ⟨t, ht⟩ : ∃ t : Fin cfg2.N, t.val = 31 := ⟨⟨31, by omega⟩, rfl⟩
  obtain ⟨-, -, -, -, e20, e21⟩ := blockIdx2_facts t
  refine ⟨t, (flush2_2 t).mpr (by omega), ?_⟩
  rw [mem_resBlock]
  intro a
  match a with
  | ⟨0, _⟩ =>
    show win2_2.index t (0 : Fin 2) * 8192 ≤ (i 0).val ∧ (i 0).val < win2_2.index t (0 : Fin 2) * 8192 + 8192
    omega
  | ⟨1, _⟩ =>
    show win2_2.index t (1 : Fin 2) * 128 ≤ (i 1).val ∧ (i 1).val < win2_2.index t (1 : Fin 2) * 128 + 128
    omega

end Region2

/-- The result array after the region: the product (left factor) · (right factor) of the arrays as the region finds
    them. -/
theorem arr2 (V : (c : Dev nD) → (b : Ref sig .tc) → Buf (Elt Ideal) ((c : Thread nD τ).loc b)) (c : Dev nD) :
    (dat2 (F := Ideal) V c).arrAt 2 cfg2.N = Cert.Spec.mm (V c main_arg1) (V c main_v2) :=
  (dat2 V c).arrAt_eq_of_cover 2 (Cert.Spec.mm (V c main_arg1) (V c main_v2))
    (fun t hf => Region2.resFlushed_eq V c t hf) Region2.lastBlock_cover

end Cert.KernelIdeal.Val

end
-- ==== Proof.Ref.IsG.lean ====
/-
  The reference computes the specification's function: entry (r, c) of its result is
  ∑ k, wavelets (r, k) · ((∑ k', wavelets⁻¹ (k, k') · (∑ k'', features (k', k'') · weight (k'', c))) · filter k),
  which is entry (r, c) of wavelets · ((wavelets⁻¹ · (features · weight)) with row k scaled by filter k).
  Each matrix product of the reference is read at an index as the sum over its contracted axis, the two
  broadcasts of the filter read back to the filter's entry at the row, and the sums are matched term by term.
-/
import proofs.«113810_j55422257988357_1_alg».proof.Proof.Gen.ReferenceIdeal.Run
import proofs.«113810_j55422257988357_1_alg».proof.Proof.Gen.ReferenceIdeal.Read
import proofs.«113810_j55422257988357_1_alg».proof.Proof.Spec

noncomputable section

namespace Cert.ReferenceIdeal.IsG

open Cert.ReferenceIdeal Cert.ReferenceIdeal.Gen Cert.ReferenceIdeal.Read Idealize.ShloMosaic Idealize.ShloMosaic.StableHlo Idealize.ShloMosaic.ValueIdx

/-! ## The index maps at (r, c) are the coordinate pairs -/

/-- features · weight at (r, c), term k: features is read at (r, k) … -/
theorem lidx0 (r : Fin 8192) (c : Fin 128) (k : Fin 256) : lidx_main_v0 (ix2 r c) k = ix2 r k :=
  funext fun a => Fin.ext (by match a with | ⟨0, _⟩ => rfl | ⟨1, _⟩ => rfl)
/-- … and weight at (k, c). -/
theorem ridx0 (r : Fin 8192) (c : Fin 128) (k : Fin 256) : ridx_main_v0 (ix2 r c) k = ix2 k c :=
  funext fun a => Fin.ext (by match a with | ⟨0, _⟩ => rfl | ⟨1, _⟩ => rfl)
/-- wavelets⁻¹ · (features · weight) at (r, c), term k: wavelets⁻¹ is read at (r, k) … -/
theorem lidx1 (r : Fin 8192) (c : Fin 128) (k : Fin 8192) : lidx_main_v1 (ix2 r c) k = ix2 r k :=
  funext fun a => Fin.ext (by match a with | ⟨0, _⟩ => rfl | ⟨1, _⟩ => rfl)
/-- … and the inner product at (k, c). -/
theorem ridx1 (r : Fin 8192) (c : Fin 128) (k : Fin 8192) : ridx_main_v1 (ix2 r c) k = ix2 k c :=
  funext fun a => Fin.ext (by match a with | ⟨0, _⟩ => rfl | ⟨1, _⟩ => rfl)
/-- The outer product at (r, c), term k: wavelets is read at (r, k) … -/
theorem lidx5 (r : Fin 8192) (c : Fin 128) (k : Fin 8192) : lidx_main_v5 (ix2 r c) k = ix2 r k :=
  funext fun a => Fin.ext (by match a with | ⟨0, _⟩ => rfl | ⟨1, _⟩ => rfl)
/-- … and the scaled matrix at (k, c). -/
theorem ridx5 (r : Fin 8192) (c : Fin 128) (k : Fin 8192) : ridx_main_v5 (ix2 r c) k = ix2 k c :=
  funext fun a => Fin.ext (by match a with | ⟨0, _⟩ => rfl | ⟨1, _⟩ => rfl)
/-- The filter broadcast to a column and then along the columns is, at (r, c), the filter's entry r. -/
theorem idx23 (r : Fin 8192) (c : Fin 128) : idx_main_v2 (idx_main_v3 (ix2 r c)) = ix1 r :=
  funext fun a => Fin.ext (by match a with | ⟨0, _⟩ => rfl)

/-! ## The reference's result is G -/

/-- The reference's last stage is the specification's function of the five arguments. -/
theorem val_eq (x0 : (⟨S8192x256, .f32⟩ : BufTy).Contents (Elt Ideal)) (x1 x2 : (⟨S8192x8192, .f32⟩ : BufTy).Contents (Elt Ideal)) (x3 : (⟨S256x128, .f32⟩ : BufTy).Contents (Elt Ideal)) (x4 : (⟨S8192, .f32⟩ : BufTy).Contents (Elt Ideal)) :
    val_main_v5 (F := Ideal) x0 x1 x2 x3 x4 = Cert.Spec.G x0 x1 x2 x3 x4 := by
  funext i
  obtain ⟨r, c, rfl⟩ : ∃ (r : Fin 8192) (c : Fin 128), i = ix2 r c := ⟨i 0, i 1, eq_ix2 i⟩
  unfold Cert.Spec.G
  rw [val_main_v5_apply, Cert.Spec.mm_apply]
  refine Finset.sum_congr rfl fun k _ => ?_
  rw [lidx5 r c k, ridx5 r c k, val_main_v4_apply, Ideal.mulf_def, val_main_v3_apply, val_main_v2_apply, idx23 k c,
    val_main_v1_apply, Cert.Spec.scaleRows_apply, Cert.Spec.colOf_apply, Cert.Spec.mm_apply]
  congr 2
  refine Finset.sum_congr rfl fun k' _ => ?_
  rw [lidx1 k c k', ridx1 k c k', val_main_v0_apply, Cert.Spec.mm_apply]
  congr 1
  refine Finset.sum_congr rfl fun k'' _ => ?_
  rw [lidx0 k' c k'', ridx0 k' c k'']

/-- The term the reference's run states for its result is the specification's function of the arguments. -/
theorem ref_term_eq (x0 : (⟨S8192x256, .f32⟩ : BufTy).Contents (Elt Ideal)) (x1 x2 : (⟨S8192x8192, .f32⟩ : BufTy).Contents (Elt Ideal)) (x3 : (⟨S256x128, .f32⟩ : BufTy).Contents (Elt Ideal)) (x4 : (⟨S8192, .f32⟩ : BufTy).Contents (Elt Ideal)) :
    Host.dotGeneral (F := Ideal) (φ₁ := .f32) (φ₂ := .f32) dot_S8192x8192_S8192x128_S8192x128_1_0_0_1_n_n none (x1) (mulf (Host.dotGeneral (F := Ideal) (φ₁ := .f32) (φ₂ := .f32) dot_S8192x8192_S8192x128_S8192x128_1_0_0_1_n_n none (x2) (Host.dotGeneral (F := Ideal) (φ₁ := .f32) (φ₂ := .f32) dot_S8192x256_S256x128_S8192x128_1_0_0_1_n_n none (x0) (x3))) (broadcastInDim S8192x128 ![0, 1] bcast_S8192x1_S8192x128_0_1 (broadcastInDim S8192x1 ![0] bcast_S8192_S8192x1_0 (x4))))
      = Cert.Spec.G x0 x1 x2 x3 x4 :=
  (val_main_v5_eq (F := Ideal) x0 x1 x2 x3 x4).trans (val_eq x0 x1 x2 x3 x4)

end Cert.ReferenceIdeal.IsG

end
-- ==== Proof.lean ====
/-
  Both programs compute out = wavelets · ((wavelets⁻¹ · (features · weight)) with row r scaled by the filter's entry r),
  entry by entry over the extended reals. The kernel program computes it in three grid regions — row blocks of the first
  product; the two 8192-long contractions each accumulated over 32 column blocks of 256 in a scratch buffer, the scaling
  applied when the second accumulator is complete — and the reference in four whole-array operations. Regrouping a sum into
  blocks needs only that addition of extended reals is commutative and associative with 0 neutral, and the scaling sits on
  the same side of the same product in both, so no finiteness of the inputs is used. The three frames: each kernel region
  runs its body at every grid point from the invariant "the accumulator holds what the point before left", and the
  reference's run is a straight line of host operations.
-/
import proofs.«113810_j55422257988357_1_alg».proof.Defs
import proofs.«113810_j55422257988357_1_alg».proof.Proof.Gen.Kernel
import proofs.«113810_j55422257988357_1_alg».proof.Proof.Gen.KernelIdeal
import proofs.«113810_j55422257988357_1_alg».proof.Proof.Gen.ReferenceIdeal
import proofs.«113810_j55422257988357_1_alg».proof.Proof.Gen.Pre_finite_inputs
import proofs.«113810_j55422257988357_1_alg».proof.Proof.Gen.ReferenceIdeal.Run
import proofs.«113810_j55422257988357_1_alg».proof.Proof.KernelFr.Run
import proofs.«113810_j55422257988357_1_alg».proof.Proof.KernelIdealFr.Run
import proofs.«113810_j55422257988357_1_alg».proof.Proof.KernelIdealVal.Final
import proofs.«113810_j55422257988357_1_alg».proof.Proof.KernelIdealVal.Val1
import proofs.«113810_j55422257988357_1_alg».proof.Proof.KernelIdealVal.Val2
import proofs.«113810_j55422257988357_1_alg».proof.Proof.Ref.IsG

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel program is the kernel program's own text. -/
theorem preserves : Cert.preserves_Kernel_KernelIdeal := trivial

/-- The idealized kernel program ends with its result array at the whole computation of its launch arguments, the
    arguments unchanged. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3) = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c =>
    ⟨(h c _ (Cert.KernelIdeal.Fr.mem_uc Cert.KernelIdeal.main_v3 (by decide))).trans (Cert.KernelIdeal.Val.out_eq m Cert.KernelIdeal.Val.arr1 Cert.KernelIdeal.Val.arr2 c),
     (h c _ (Cert.KernelIdeal.Fr.mem_uc Cert.KernelIdeal.main_arg0 (by decide))).trans (Cert.KernelIdeal.Fr.W4_main_arg0 m c),
     (h c _ (Cert.KernelIdeal.Fr.mem_uc Cert.KernelIdeal.main_arg1 (by decide))).trans (Cert.KernelIdeal.Fr.W4_main_arg1 m c),
     (h c _ (Cert.KernelIdeal.Fr.mem_uc Cert.KernelIdeal.main_arg2 (by decide))).trans (Cert.KernelIdeal.Fr.W4_main_arg2 m c),
     (h c _ (Cert.KernelIdeal.Fr.mem_uc Cert.KernelIdeal.main_arg3 (by decide))).trans (Cert.KernelIdeal.Fr.W4_main_arg3 m c),
     (h c _ (Cert.KernelIdeal.Fr.mem_uc Cert.KernelIdeal.main_arg4 (by decide))).trans (Cert.KernelIdeal.Fr.W4_main_arg4 m c)⟩)
    (Cert.KernelIdeal.Fr.run_all (F := Ideal) m ρ)

/-- From memories agreeing on the arguments both idealized programs end with the same result array: the whole
    computation of the arguments. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.IsG.ref_term_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
